-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S8192x3 : Shape := ⟨2, ![8192, 3]⟩
abbrev S8192x1 : Shape := ⟨2, ![8192, 1]⟩
abbrev S512x3 : Shape := ⟨2, ![512, 3]⟩
abbrev S2048x3 : Shape := ⟨2, ![2048, 3]⟩
abbrev S512x1 : Shape := ⟨2, ![512, 1]⟩
abbrev S512 : Shape := ⟨1, ![512]⟩
abbrev S2048 : Shape := ⟨1, ![2048]⟩
abbrev S1x2048 : Shape := ⟨2, ![1, 2048]⟩
abbrev S3x2048 : Shape := ⟨2, ![3, 2048]⟩
abbrev S512x2048 : Shape := ⟨2, ![512, 2048]⟩
abbrev S8192 : Shape := ⟨1, ![8192]⟩
abbrev S_ : Shape := ⟨0, ![]⟩

abbrev nBuf : Space → Nat
  | .hbm => 15
  | .vmem => 14
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S512x3, .f32⟩
  | .local _ .vmem, ⟨1, _⟩ => ⟨S512x3, .f32⟩
  | .local _ .vmem, ⟨2, _⟩ => ⟨S2048x3, .f32⟩
  | .local _ .vmem, ⟨3, _⟩ => ⟨S2048x3, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x3, .f32⟩
  | .local _ .vmem, ⟨8, _⟩ => ⟨S512x3, .f32⟩
  | .local _ .vmem, ⟨9, _⟩ => ⟨S2048x3, .f32⟩
  | .local _ .vmem, ⟨10, _⟩ => ⟨S2048x3, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_13 : BitVec 32 := 0#32
  let v31 : BitVec 1 := Scalar.cmpi .ne v30 c0_i32_13
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3_S512x3_0_0 : ∀ a, (![0, 0] : Fin 2 → Nat) a + S512x3.size a ≤ S512x3.size a
  h_S512x3 : 0 < S512x3.numel
  inb_S2048x3_S2048x3_0_0 : ∀ a, (![0, 0] : Fin 2 → Nat) a + S2048x3.size a ≤ S2048x3.size a
  h_S2048x3 : 0 < S2048x3.numel
  reduces_S512x3_S512 : S512x3.Reduces [1] S512
  shapeCasts_S512_S512x1 : S512.ShapeCasts S512x1
  reduces_S2048x3_S2048 : S2048x3.Reduces [1] S2048
  shapeCasts_S2048_S1x2048 : S2048.ShapeCasts S1x2048
  transposes_S2048x3_p1_0_S3x2048 : S2048x3.Transposes [1, 0] S3x2048
  broadcasts_S512x1_S512x2048 : S512x1.Broadcasts S512x2048
  broadcasts_S1x2048_S512x2048 : S1x2048.Broadcasts S512x2048
  reduces_S512x2048_S512 : S512x2048.Reduces [1] S512
  shapeCasts_S8192x1_S8192 : S8192x1.ShapeCasts S8192
  reducesTo_S8192_S_d0 : S8192.ReducesTo [0] S_
  h_S_ : 0 < S_.numel
  dot_S512x3_S3x2048_S512x2048_1_0_0_1_n_n_wf : DotDims.WF S512x3 S3x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S8192x3.size a
  hwx0_0 : ∀ i : grid0.Coords, EltTy.bits .f32 = 32 ∨ (Rect.block (s := S8192x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S8192x3.size a
  hwx0_1 : ∀ i : grid0.Coords, EltTy.bits .f32 = 32 ∨ (Rect.block (s := S8192x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3.size a ≤ S8192x3.size a
  hwx1_0 : ∀ i : grid1.Coords, EltTy.bits .f32 = 32 ∨ (Rect.block (s := S8192x3) S512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x3.size a ≤ S8192x3.size a
  hwx1_1 : ∀ i : grid1.Coords, EltTy.bits .f32 = 32 ∨ (Rect.block (s := S8192x3) S2048x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)

variable [Facts₀]

def dot_S512x3_S3x2048_S512x2048_1_0_0_1_n_n : DotDims S512x3 S3x2048 S512x2048 where
  lhsContracting := [1]
  rhsContracting := [0]
  lhsNonContracting := [0]
  rhsNonContracting := [1]
  lhsBatch := []
  rhsBatch := []
  wf := dot_S512x3_S3x2048_S512x2048_1_0_0_1_n_n_wf

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x3 : Shape := ⟨2, ![8192, 3]⟩
abbrev S_ : Shape := ⟨0, ![]⟩
abbrev S8192 : Shape := ⟨1, ![8192]⟩
abbrev S3x8192 : Shape := ⟨2, ![3, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x3, .f32⟩
  | .hbm, ⟨3, _⟩ => ⟨S_, .f32⟩
  | .hbm, ⟨4, _⟩ => ⟨S8192, .f32⟩
  | .hbm, ⟨5, _⟩ => ⟨S8192x3, .f32⟩
  | .hbm, ⟨6, _⟩ => ⟨S_, .f32⟩
  | .hbm, ⟨7, _⟩ => ⟨S8192, .f32⟩
  | .hbm, ⟨8, _⟩ => ⟨S3x8192, .f32⟩
  | .hbm, ⟨9, _⟩ => ⟨S8192x8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S8192x3_S8192_d1 : S8192x3.ReducesTo [1] S8192
  h_S_ : 0 < S_.numel
  transposes_S8192x3_S3x8192_1_0 : S8192x3.Transposes [1, 0] S3x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  reducesTo_S8192x8192_S8192_d0 : S8192x8192.ReducesTo [0] S8192
  dot_S8192x3_S3x8192_S8192x8192_1_0_0_1_n_n_wf : DotDims.WF S8192x3 S3x8192 S8192x8192 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.Spec.lean ====
/-
  The mathematics both programs compute, stated once over plain index types and importing no program.

  A block of `n` points of 3-space is a rank-2 array of extended reals. For two blocks `x`, `y`:
  `sqP x p` is the squared norm of point `p`, `dotP x y p q` the inner product of point `p` of `x` with point
  `q` of `y`, and `distP x y p q = sqrt (max ((sqP x p + sqP y q) - 2 * dotP x y p q) 0)` their distance through
  the expansion of the square. `minOver x y p` is the least distance from point `p` of `x` to a point of `y`: a
  fold of `min` from the word `+inf` over all points of `y`. On the two whole clouds of 8192 points, `rowMin` is
  `minOver`, and `colMin x y j` is the least distance from point `j` of `y` to a point of `x`, taken down a
  column of the same distance matrix. The literals are kept as the words the programs print: the same word on both
  sides is never evaluated.
-/
import Idealize.ShloMosaic.PureOps.Ideal
import Idealize.ShloMosaic.Lib.ValueIdx

noncomputable section

open scoped BigOperators

namespace Cert.Spec

open Idealize.ShloMosaic Idealize.ShloMosaic.ValueIdx

/-- `n` points of 3-space, as a rank-2 array of extended reals. -/
abbrev Pts (n : Nat) : Type := (⟨2, ![n, 3]⟩ : Shape).Idx → EReal

/-- The words `2.0`, `0.0` and `+inf` of f32 read as extended reals. -/
def twoW : EReal := Ideal.ofBits .f32 0x40000000#32
def zeroW : EReal := Ideal.ofBits .f32 0x00000000#32
def infW : EReal := Ideal.ofBits .f32 0x7F800000#32

/-- The squared norm of point `p`. -/
def sqP {n : Nat} (x : Pts n) (p : Fin n) : EReal := ∑ k : Fin 3, x (ix2 p k) * x (ix2 p k)

/-- The inner product of point `p` of `x` with point `q` of `y`. -/
def dotP {n m : Nat} (x : Pts n) (y : Pts m) (p : Fin n) (q : Fin m) : EReal := ∑ k : Fin 3, x (ix2 p k) * y (ix2 q k)

/-- One entry of the distance matrix, from the two squared norms and the inner product, clamped at zero before the root. -/
def distOf (a b d : EReal) : EReal := Ideal.sqrt (max (a + b - twoW * d) zeroW)

/-- The distance from point `p` of `x` to point `q` of `y`. -/
def distP {n m : Nat} (x : Pts n) (y : Pts m) (p : Fin n) (q : Fin m) : EReal := distOf (sqP x p) (sqP y q) (dotP x y p q)

/-- The least distance from point `p` of `x` to a point of `y`. -/
def minOver {n m : Nat} (x : Pts n) (y : Pts m) (p : Fin n) : EReal :=
  (Finset.univ : Finset (Fin m)).fold min infW (fun q => distP x y p q)

/-- On the whole clouds: the least distance from point `i` of `x` to a point of `y` (along a row of the matrix). -/
def rowMin (x y : Pts 8192) (i : Fin 8192) : EReal := minOver x y i

/-- And the least distance from point `j` of `y` to a point of `x` (down a column of the same matrix). -/
def colMin (x y : Pts 8192) (j : Fin 8192) : EReal :=
  (Finset.univ : Finset (Fin 8192)).fold min infW (fun i => distP x y i j)

/-- Block `b` of 2048 consecutive points of a cloud of 8192. -/
def blk2048 (y : Pts 8192) (b : Fin 4) : Pts 2048 :=
  fun ix => y (ix2 (⟨2048 * b.val + (ix 0).val, by have := (ix 0).isLt; have := b.isLt; simp only [Matrix.cons_val_zero] at *; omega⟩ : Fin 8192) (ix 1))

/-- Block `a` of 512 consecutive points of a cloud of 8192. -/
def blk512 (x : Pts 8192) (a : Fin 16) : Pts 512 :=
  fun ix => x (ix2 (⟨512 * a.val + (ix 0).val, by have := (ix 0).isLt; have := a.isLt; simp only [Matrix.cons_val_zero] at *; omega⟩ : Fin 8192) (ix 1))

end Cert.Spec

end
-- ==== Proof.SpecMean.lean ====
/-
  The last step both programs share: the mean of each of two vectors of 8192 extended reals, and the sum of the two
  means. A mean is taken as the programs take it: the sum of the entries started from the word `0.0`, divided by the
  word `8192.0`. Stated once over the literal shapes, so that the two programs' closing operations are one function
  of the two vectors and never need opening.
-/
import proofs.«123189_j2370821948077_1_alg».proof.Proof.Spec
import Idealize.ShloMosaic.PureOps

noncomputable section

namespace Cert.Spec

open Idealize.ShloMosaic

/-- A vector of 8192 extended reals, and a single one, as arrays. -/
abbrev Vec8192 : Type := FVec Ideal ⟨1, ![8192]⟩ .f32
abbrev Scal : Type := FVec Ideal ⟨0, ![]⟩ .f32

/-- The mean of a vector: its sum from `0.0`, divided by `8192.0`. -/
def meanOf (h : (⟨1, ![8192]⟩ : Shape).ReducesTo [0] ⟨0, ![]⟩) (hS : 0 < (⟨0, ![]⟩ : Shape).numel) (a : Vec8192) : Scal :=
  Host.divf (Host.reduceAdd a (constant (F := Ideal) ⟨0, ![]⟩ .f32 0x00000000#32) h hS) (constant (F := Ideal) ⟨0, ![]⟩ .f32 0x46000000#32)

/-- The sum of the means of two vectors. -/
def meanSum (h : (⟨1, ![8192]⟩ : Shape).ReducesTo [0] ⟨0, ![]⟩) (hS : 0 < (⟨0, ![]⟩ : Shape).numel) (a b : Vec8192) : Scal :=
  addf (meanOf h hS a) (meanOf h hS b)

end Cert.Spec

end
-- ==== Proof.KernelR0Run.lean ====
/-
  The kernel body of pallas_call 0 of `Kernel`, run once in each of the three ways its two conditionals can fall.

  The grid is 16 × 4: point `t` is row block `t / 4` against column block `t % 4`. The body keeps a running
  minimum in a scratch buffer: at the first column block (`t % 4 = 0`) it resets the scratch to `+inf`; at every
  point it replaces the scratch by `min scratch tile`, where `tile` is the row-wise least distance from the 512
  points of the row block to the 2048 points of the column block; at the last column block (`t % 4 = 3`) it copies
  the scratch into the output block. So there are three cases — reset (A), plain step (B), step and copy-out (C) —
  and in each the buffers end at values named outright: the scratch at `k0_pay2 x y s` (`s` what it held, or
  the splat `k0_pay1` of `+inf` after a reset), the output block at the same value in case C and untouched
  otherwise, the two input blocks unchanged. Every load and store is of a whole buffer, so reading back what a
  store left is reading its payload.
-/
import proofs.«123189_j2370821948077_1_alg».proof.Proof.Gen.Kernel.Launch
import proofs.«123189_j2370821948077_1_alg».proof.Proof.Gen.Kernel.Skeleton
import proofs.«123189_j2370821948077_1_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The body resets its scratch exactly when the column-block coordinate is zero. -/
abbrev condReset (i : grid0.Coords) : Prop := (Scalar.cmpi .ne (Scalar.extui (Scalar.cmpi .eq (BitVec.ofNat 32 (i 1).val) 0#32)) 0#32) = 1#1
/-- It copies the scratch out exactly when the column-block coordinate is the last one. -/
abbrev condLast (i : grid0.Coords) : Prop := k0_cond2 i = 1#1

theorem hcondReset : ∀ t : Fin cfg0.N, condReset (grid0.coords t) ↔ t.val % 4 = 0 :=
  (by decide +kernel : ∀ t : Fin grid0.N, condReset (grid0.coords t) ↔ t.val % 4 = 0)
theorem hcondLast : ∀ t : Fin cfg0.N, condLast (grid0.coords t) ↔ t.val % 4 = 3 :=
  (by decide +kernel : ∀ t : Fin grid0.N, condLast (grid0.coords t) ↔ t.val % 4 = 3)

/-! ## Where the windows are idle: the inputs never, the output wherever the body does not copy out -/

theorem liveIn0 : ∀ t : Fin cfg0.N, cfg0.idle 0 (grid0.coords t) = false := by decide +kernel
theorem liveIn1 : ∀ t : Fin cfg0.N, cfg0.idle 1 (grid0.coords t) = false := by decide +kernel
theorem idleOut : ∀ t : Fin cfg0.N, ¬condLast (grid0.coords t) → cfg0.idle 2 (grid0.coords t) = true := by decide +kernel
theorem noFlushOut : ∀ t : Fin cfg0.N, ¬condLast (grid0.coords t) → (cfg0.win 2).flush t = false := by decide +kernel
theorem liveOut : ∀ t : Fin cfg0.N, condLast (grid0.coords t) → cfg0.idle 2 (grid0.coords t) = false := by decide +kernel

/-! ## One whole-buffer store covers the buffer -/

theorem hz00 : (![0, 0] : Fin 2 → Nat) = fun _ => 0 := by funext a; fin_cases a <;> rfl

/-- The rectangle of every access to a 512 × 1 buffer: all of it. -/
abbrev rS : Rect S512x1 := Rect.unit (s := S512x1) ![0, 0] S512x1.size inb_S512x1_S512x1_0_0
theorem cover1 (p0 : Vec F S512x1 .f32) (y : S512x1.Idx) :
    ∃ pc ∈ ([⟨rS, p0⟩] : List (View.Piece (Elt F) S512x1 .f32)), y ∈ pc.1.set :=
  ⟨⟨rS, p0⟩, List.mem_singleton_self _, View.mem_set_unit_zero (S := S512x1) hz00 inb_S512x1_S512x1_0_0 y⟩
theorem cover2 (p0 p1 : Vec F S512x1 .f32) (y : S512x1.Idx) :
    ∃ pc ∈ ([⟨rS, p0⟩, ⟨rS, p1⟩] : List (View.Piece (Elt F) S512x1 .f32)), y ∈ pc.1.set :=
  ⟨⟨rS, p0⟩, List.mem_cons_self .., View.mem_set_unit_zero (S := S512x1) hz00 inb_S512x1_S512x1_0_0 y⟩

/-! ## The three runs -/

set_option maxHeartbeats 1000000 in
/-- CASE A, a reset point: whatever the scratch held, it ends at the step from the splat of `+inf`; the output block is not touched. -/
theorem runA (c : Dev nD) (i : grid0.Coords) (arg2 : Memref sig .tc .vmem S512x3 .f32) (harg2 : arg2.IsWhole) (arg3 : Memref sig .tc .vmem S2048x3 .f32) (harg3 : arg3.IsWhole) (arg4 : Memref sig .tc .vmem S512x1 .f32) (harg4 : arg4.IsWhole) (arg5 : Memref sig .tc .vmem S512x1 .f32) (harg5 : arg5.IsWhole)
    (hc0 : condReset i) (hc1 : ¬condLast i)
    (x0 : Vec F S512x3 .f32) (x1 : Vec F S2048x3 .f32) (xi : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k0_pay2 x0 x1 k0_pay1)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (cover2 _ _)]
  rw [View.canon_cons_unit_zero hz00]
  simp only [View.readAt_eq_ld, harg2.read_unread, harg3.read_unread, harg5.read_unread, View.ld_unit_zero (S := S512x3) hz00, View.ld_unit_zero (S := S2048x3) hz00, View.ld_unit_zero (S := S512x1) hz00]
  rw [View.readCov_unit_zero (S := S512x1) arg5.view hz00]

set_option maxHeartbeats 1000000 in
/-- CASE B, a plain step: the scratch `xs` ends at the step from `xs`; the output block is not touched. -/
theorem runB (c : Dev nD) (i : grid0.Coords) (arg2 : Memref sig .tc .vmem S512x3 .f32) (harg2 : arg2.IsWhole) (arg3 : Memref sig .tc .vmem S2048x3 .f32) (harg3 : arg3.IsWhole) (arg4 : Memref sig .tc .vmem S512x1 .f32) (harg4 : arg4.IsWhole) (arg5 : Memref sig .tc .vmem S512x1 .f32) (harg5 : arg5.IsWhole)
    (hc0 : ¬condReset i) (hc1 : ¬condLast i)
    (x0 : Vec F S512x3 .f32) (x1 : Vec F S2048x3 .f32) (xi : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k0_pay2 x0 x1 xs)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (cover1 _)]
  rw [View.canon_unit_zero hz00]
  simp only [View.readAt_eq_ld, harg2.read_unread, harg3.read_unread, harg5.read_unread, View.ld_unit_zero (S := S512x3) hz00, View.ld_unit_zero (S := S2048x3) hz00, View.ld_unit_zero (S := S512x1) hz00]

set_option maxHeartbeats 1000000 in
/-- CASE C, the last column block: the scratch ends at the step from `xs`, and the output block at that same value. -/
theorem runC (c : Dev nD) (i : grid0.Coords) (arg2 : Memref sig .tc .vmem S512x3 .f32) (harg2 : arg2.IsWhole) (arg3 : Memref sig .tc .vmem S2048x3 .f32) (harg3 : arg3.IsWhole) (arg4 : Memref sig .tc .vmem S512x1 .f32) (harg4 : arg4.IsWhole) (arg5 : Memref sig .tc .vmem S512x1 .f32) (harg5 : arg5.IsWhole)
    (hc0 : ¬condReset i) (hc1 : condLast i)
    (x0 : Vec F S512x3 .f32) (x1 : Vec F S2048x3 .f32) (xi : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (cover1 _)]
    rw [View.canon_unit_zero hz00]
    simp only [View.readAt_eq_ld, harg2.read_unread, harg3.read_unread, harg5.read_unread, View.ld_unit_zero (S := S512x3) hz00, View.ld_unit_zero (S := S2048x3) hz00, View.ld_unit_zero (S := S512x1) hz00]
    exact View.readCov_unit_zero (S := S512x1) arg5.view hz00 _ _
  iexists _; isplitr
  swap; · iexact HS
  ipureintro
  sl_unfold_words
  rw [View.read_writes_eq_canon _ _ _ (cover1 _)]
  rw [View.canon_unit_zero hz00]
  simp only [View.readAt_eq_ld, harg2.read_unread, harg3.read_unread, harg5.read_unread, View.ld_unit_zero (S := S512x3) hz00, View.ld_unit_zero (S := S2048x3) hz00, View.ld_unit_zero (S := S512x1) hz00]

end Cert.Kernel.Reg0

end
-- ==== Proof.KernelR0Body.lean ====
/-
  Pallas_call 0 of `Kernel` as a pipeline: what its buffers hold after each grid point, and the proof that the body
  keeps it so.

  The grid's 64 points run row block by row block, four column blocks each. After point `n` the scratch holds
  `scAt n`: at the first column block of a row block the step from the splat of `+inf`, afterwards the step from
  what the point before left — a running minimum over the column blocks seen so far in this row block. The output
  window's staging buffer holds that same value at the last column block, which is the only point where it is written
  back; elsewhere it is idle. The two input windows' staging buffers hold their arrays' blocks at every point, fetched
  there or not (the row block's window is fetched once per four points). The region's invariant carries the scratch
  at `scAt (n - 1)` from the second point on, the other scoped buffers at anything, and the generator register.
  Everything is stated at the contents `V` the arrays hold when the region is entered.
-/
import proofs.«123189_j2370821948077_1_alg».proof.Proof.KernelR0Run

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point: where it is not fetched its block index has
    not moved since the point before. -/
theorem beforeIn0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column-block window's likewise (it is fetched at every point). -/
theorem beforeIn1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The running minimum, point by point -/

/-- What the scratch holds after point `n`: the step from `+inf` at the first column block of a row block, from
    what the point before left otherwise. -/
def scAt (c : Dev nD) : (n : ℕ) → n < cfg0.N → Vec F S512x1 .f32
  | 0, hn => k0_pay2 (iblk V c 0 ⟨0, hn⟩) (iblk V c 1 ⟨0, hn⟩) k0_pay1
  | n + 1, hn => k0_pay2 (iblk V c 0 ⟨n + 1, hn⟩) (iblk V c 1 ⟨n + 1, hn⟩)
      (if (n + 1) % 4 = 0 then k0_pay1 else scAt c n (Nat.lt_of_succ_lt hn))

theorem scAt_reset (c : Dev nD) (t : Fin cfg0.N) (h0 : t.val % 4 = 0) :
    scAt V c t.val t.isLt = k0_pay2 (iblk V c 0 t) (iblk V c 1 t) k0_pay1 := by
  obtain ⟨n, hn⟩ := t
  cases n with
  | zero => rfl
  | succ n => exact congrArg (k0_pay2 _ _) (if_pos h0)

theorem scAt_step (c : Dev nD) (t : Fin cfg0.N) (h0 : ¬t.val % 4 = 0) :
    scAt V c t.val t.isLt = k0_pay2 (iblk V c 0 t) (iblk V c 1 t) (scAt V c (t.val - 1) (Nat.lt_of_le_of_lt (Nat.sub_le _ _) t.isLt)) := by
  obtain ⟨n, hn⟩ := t
  cases n with
  | zero => exact absurd (Nat.zero_mod _) h0
  | succ n => exact congrArg (k0_pay2 _ _) (if_neg h0)

/-! ## The invariant -/

/-- The scratch the body carries between points, as a whole-buffer memref. -/
abbrev scM : Memref sig .tc .vmem S512x1 .f32 := Memref.whole cc0_scratch0
/-- The core's other scoped buffers that no window of this call stages: carried unopened. -/
abbrev others (c : Dev nD) : sProp 𝕄 :=
  Pipeline.scopedRestBut (Ix := Unit) (Name := ℕ) (U := UR sig nD τ) (Lvl := ℕ) (Val := Elt F) spec0 c [cc0_scratch0]

/-- The class's invariant with the carried scratch split off. -/
theorem PhiA_eq (c : Dev nD) :
    (Pipeline.ΦA spec0 c : sProp 𝕄) = iprop(((∃ d, owns (c : Thread nD τ) scM fullShare d) ∗ others c) ∗ (∃ r, prngReg c r)) := by
  unfold Pipeline.ΦA
  rw [Pipeline.scopedRest_split_of_list spec0 c [cc0_scratch0] (by decide) (by decide)]
  simp only [scM, owns_whole]
  rfl

/-- Before point `n`: at the very first point the class's invariant (the scratch at anything); afterwards the scratch
    at what point `n - 1` left, the other scoped buffers and the generator register at anything. -/
def PhiS (c : Dev nD) : (n : ℕ) → n ≤ cfg0.N → sProp 𝕄
  | 0, _ => Pipeline.ΦA spec0 c
  | n + 1, hn => iprop((owns (c : Thread nD τ) scM fullShare (scAt V c n hn) ∗ others c) ∗ (∃ r, prngReg c r))

theorem PhiS_succ (c : Dev nD) (n : ℕ) (hn : n < cfg0.N) :
    PhiS V c (n + 1) hn = iprop((owns (c : Thread nD τ) scM fullShare (scAt V c n hn) ∗ others c) ∗ (∃ r, prngReg c r)) := rfl

theorem PhiS_pos (c : Dev nD) (n : ℕ) (h : n ≤ cfg0.N) (hz : n ≠ 0) :
    PhiS V c n h = iprop((owns (c : Thread nD τ) scM fullShare (scAt V c (n - 1) (by omega)) ∗ others c) ∗ (∃ r, prngReg c r)) := by
  cases n with
  | zero => exact absurd rfl hz
  | succ n => rfl

/-- At any point the invariant yields the scratch at SOME contents: all a reset point needs. -/
theorem PhiS_any (c : Dev nD) (n : ℕ) (h : n ≤ cfg0.N) :
    PhiS V c n h ⊢ iprop(((∃ d, owns (c : Thread nD τ) scM fullShare d) ∗ others c) ∗ (∃ r, prngReg c r)) := by
  cases n with
  | zero => rw [show PhiS V c 0 h = Pipeline.ΦA spec0 c from rfl, PhiA_eq]
  | succ n =>
    rw [PhiS_succ]
    iintro ⟨⟨HS, Hoth⟩, Hg⟩
    isplitl [HS Hoth]
    · isplitl [HS]
      · iexists _; iexact HS
      iexact Hoth
    iexact Hg

/-! ## The proof data -/

/-- The pipeline's proof data on core `c`: the arrays as the region finds them; after the body each input's buffer at
    its block and the output's at the running minimum; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => scAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = scAt V c t.val t.isLt := by dsimp only [dat]

theorem before0 (c : Dev nD) (t : Fin cfg0.N) (d) : (dat V c).before 0 t d = iblk V c 0 t :=
  beforeIn0_of V (dat V c) (A_eq V c 0) (after0 V c) t d
theorem before1 (c : Dev nD) (t : Fin cfg0.N) (d) : (dat V c).before 1 t d = iblk V c 1 t :=
  beforeIn1_of V (dat V c) (A_eq V c 1) (after1 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The point's place in its row block says which of the three runs applies; the inputs'
    buffers hold their blocks; the invariant hands over the scratch (at anything for a reset, at what the point before
    left otherwise) and takes it back at this point's running minimum; where the output is idle its buffer goes back
    as it came. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st0_0 t) fullShare ((dat V c).after 0 t) from by
    unfold Dat.leavesExact; rw [liveIn0 t], after0]
  rw [show (dat V c).leavesExact 1 t = owns (c : Thread nD τ) (st0_1 t) fullShare ((dat V c).after 1 t) from by
    unfold Dat.leavesExact; rw [liveIn1 t], after1]
  have hN : t.val < 64 := lt_of_lt_of_eq t.isLt (show cfg0.N = 64 from N_0)
  by_cases h1 : t.val % 4 = 3
  · have h0 : ¬t.val % 4 = 0 := by omega
    have hz : t.val ≠ 0 := by omega
    rw [show (dat V c).leavesExact 2 t = owns (c : Thread nD τ) (st0_2 t) fullShare ((dat V c).after 2 t) from by
      unfold Dat.leavesExact; rw [liveOut t ((hcondLast t).mpr h1)], after2]
    rw [scAt_step V c t h0, PhiS_castSucc V c t, PhiS_pos V c _ _ hz]
    iintro ⟨⟨⟨HS, Hoth⟩, Hg⟩, Ho, ⟨%d0, H0⟩, ⟨%d1, H1⟩, ⟨%d2, H2⟩⟩
    iapply (runC c (grid0.coords t) _ _ _ _ _ _ _ _ (fun h => h0 ((hcondReset t).mp h)) ((hcondLast t).mpr h1) (iblk V c 0 t) (iblk V c 1 t) _ _ Set.univ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat V c) 2 t (idleOut t (fun h => h1 ((hcondLast t).mp h))) (noFlushOut t (fun h => h1 ((hcondLast t).mp h)))]
    by_cases h0 : t.val % 4 = 0
    · rw [scAt_reset V c t h0, PhiS_castSucc V c t]
      iintro ⟨HΦ, Ho, ⟨%d0, H0⟩, ⟨%d1, H1⟩, ⟨%d2, H2⟩⟩
      ihave HΦ' := (PhiS_any V c t.val (Nat.le_of_lt t.isLt)) $$ HΦ
      icases HΦ' with ⟨⟨⟨%ds, HS⟩, Hoth⟩, Hg⟩
      iapply (runA c (grid0.coords t) _ _ _ _ _ _ _ _ ((hcondReset t).mpr h0) (fun h => h1 ((hcondLast t).mp h)) (iblk V c 0 t) (iblk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · have hz : t.val ≠ 0 := fun e => h0 (by rw [e])
      rw [scAt_step V c t h0, PhiS_castSucc V c t, PhiS_pos V c _ _ hz]
      iintro ⟨⟨⟨HS, Hoth⟩, Hg⟩, Ho, ⟨%d0, H0⟩, ⟨%d1, H1⟩, ⟨%d2, H2⟩⟩
      iapply (runB c (grid0.coords t) _ _ _ _ _ _ _ _ (fun h => h0 ((hcondReset t).mp h)) (fun h => h1 ((hcondLast t).mp h)) (iblk V c 0 t) (iblk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the region's entry hands over is the invariant before the first point. -/
theorem Phi_in (c : Dev nD) : Pipeline.ΦA spec0 c ⊢ (dat V c).Φ 0 := by
  rw [show (dat V c).Φ 0 = Pipeline.ΦA spec0 c from rfl]

/-- After the last point the invariant gives the class's back: the scratch's named contents are forgotten. -/
theorem Phi_out (c : Dev nD) : (dat V c).Φ (Fin.last cfg0.N) ⊢ Pipeline.ΦA spec0 c := by
  have hN : cfg0.N = 64 := N_0
  rw [show (dat V c).Φ (Fin.last cfg0.N) = PhiS V c cfg0.N (Nat.le_refl _) from rfl, PhiA_eq]
  exact PhiS_any V c cfg0.N (Nat.le_refl _)

end

end Cert.Kernel.Reg0

end
-- ==== Proof.KernelR1Run.lean ====
/-
  The kernel body of pallas_call 1 of `Kernel`, run once in each of the three ways its two conditionals can fall.

  The grid is 16 × 4: point `t` is row block `t / 4` against column block `t % 4`. The body keeps a running
  minimum in a scratch buffer: at the first column block (`t % 4 = 0`) it resets the scratch to `+inf`; at every
  point it replaces the scratch by `min scratch tile`, where `tile` is the row-wise least distance from the 512
  points of the row block to the 2048 points of the column block; at the last column block (`t % 4 = 3`) it copies
  the scratch into the output block. So there are three cases — reset (A), plain step (B), step and copy-out (C) —
  and in each the buffers end at values named outright: the scratch at `k1_pay2 x y s` (`s` what it held, or
  the splat `k1_pay1` of `+inf` after a reset), the output block at the same value in case C and untouched
  otherwise, the two input blocks unchanged. Every load and store is of a whole buffer, so reading back what a
  store left is reading its payload.
-/
import proofs.«123189_j2370821948077_1_alg».proof.Proof.Gen.Kernel.Launch
import proofs.«123189_j2370821948077_1_alg».proof.Proof.Gen.Kernel.Skeleton
import proofs.«123189_j2370821948077_1_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The body resets its scratch exactly when the column-block coordinate is zero. -/
abbrev condReset (i : grid1.Coords) : Prop := (Scalar.cmpi .ne (Scalar.extui (Scalar.cmpi .eq (BitVec.ofNat 32 (i 1).val) 0#32)) 0#32) = 1#1
/-- It copies the scratch out exactly when the column-block coordinate is the last one. -/
abbrev condLast (i : grid1.Coords) : Prop := k1_cond2 i = 1#1

theorem hcondReset : ∀ t : Fin cfg1.N, condReset (grid1.coords t) ↔ t.val % 4 = 0 :=
  (by decide +kernel : ∀ t : Fin grid1.N, condReset (grid1.coords t) ↔ t.val % 4 = 0)
theorem hcondLast : ∀ t : Fin cfg1.N, condLast (grid1.coords t) ↔ t.val % 4 = 3 :=
  (by decide +kernel : ∀ t : Fin grid1.N, condLast (grid1.coords t) ↔ t.val % 4 = 3)

/-! ## Where the windows are idle: the inputs never, the output wherever the body does not copy out -/

theorem liveIn0 : ∀ t : Fin cfg1.N, cfg1.idle 0 (grid1.coords t) = false := by decide +kernel
theorem liveIn1 : ∀ t : Fin cfg1.N, cfg1.idle 1 (grid1.coords t) = false := by decide +kernel
theorem idleOut : ∀ t : Fin cfg1.N, ¬condLast (grid1.coords t) → cfg1.idle 2 (grid1.coords t) = true := by decide +kernel
theorem noFlushOut : ∀ t : Fin cfg1.N, ¬condLast (grid1.coords t) → (cfg1.win 2).flush t = false := by decide +kernel
theorem liveOut : ∀ t : Fin cfg1.N, condLast (grid1.coords t) → cfg1.idle 2 (grid1.coords t) = false := by decide +kernel

/-! ## One whole-buffer store covers the buffer -/

theorem hz00 : (![0, 0] : Fin 2 → Nat) = fun _ => 0 := by funext a; fin_cases a <;> rfl

/-- The rectangle of every access to a 512 × 1 buffer: all of it. -/
abbrev rS : Rect S512x1 := Rect.unit (s := S512x1) ![0, 0] S512x1.size inb_S512x1_S512x1_0_0
theorem cover1 (p0 : Vec F S512x1 .f32) (y : S512x1.Idx) :
    ∃ pc ∈ ([⟨rS, p0⟩] : List (View.Piece (Elt F) S512x1 .f32)), y ∈ pc.1.set :=
  ⟨⟨rS, p0⟩, List.mem_singleton_self _, View.mem_set_unit_zero (S := S512x1) hz00 inb_S512x1_S512x1_0_0 y⟩
theorem cover2 (p0 p1 : Vec F S512x1 .f32) (y : S512x1.Idx) :
    ∃ pc ∈ ([⟨rS, p0⟩, ⟨rS, p1⟩] : List (View.Piece (Elt F) S512x1 .f32)), y ∈ pc.1.set :=
  ⟨⟨rS, p0⟩, List.mem_cons_self .., View.mem_set_unit_zero (S := S512x1) hz00 inb_S512x1_S512x1_0_0 y⟩

/-! ## The three runs -/

set_option maxHeartbeats 1000000 in
/-- CASE A, a reset point: whatever the scratch held, it ends at the step from the splat of `+inf`; the output block is not touched. -/
theorem runA (c : Dev nD) (i : grid1.Coords) (arg2 : Memref sig .tc .vmem S512x3 .f32) (harg2 : arg2.IsWhole) (arg3 : Memref sig .tc .vmem S2048x3 .f32) (harg3 : arg3.IsWhole) (arg4 : Memref sig .tc .vmem S512x1 .f32) (harg4 : arg4.IsWhole) (arg5 : Memref sig .tc .vmem S512x1 .f32) (harg5 : arg5.IsWhole)
    (hc0 : condReset i) (hc1 : ¬condLast i)
    (x0 : Vec F S512x3 .f32) (x1 : Vec F S2048x3 .f32) (xi : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k1_pay2 x0 x1 k1_pay1)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (cover2 _ _)]
  rw [View.canon_cons_unit_zero hz00]
  simp only [View.readAt_eq_ld, harg2.read_unread, harg3.read_unread, harg5.read_unread, View.ld_unit_zero (S := S512x3) hz00, View.ld_unit_zero (S := S2048x3) hz00, View.ld_unit_zero (S := S512x1) hz00]
  rw [View.readCov_unit_zero (S := S512x1) arg5.view hz00]

set_option maxHeartbeats 1000000 in
/-- CASE B, a plain step: the scratch `xs` ends at the step from `xs`; the output block is not touched. -/
theorem runB (c : Dev nD) (i : grid1.Coords) (arg2 : Memref sig .tc .vmem S512x3 .f32) (harg2 : arg2.IsWhole) (arg3 : Memref sig .tc .vmem S2048x3 .f32) (harg3 : arg3.IsWhole) (arg4 : Memref sig .tc .vmem S512x1 .f32) (harg4 : arg4.IsWhole) (arg5 : Memref sig .tc .vmem S512x1 .f32) (harg5 : arg5.IsWhole)
    (hc0 : ¬condReset i) (hc1 : ¬condLast i)
    (x0 : Vec F S512x3 .f32) (x1 : Vec F S2048x3 .f32) (xi : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k1_pay2 x0 x1 xs)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (cover1 _)]
  rw [View.canon_unit_zero hz00]
  simp only [View.readAt_eq_ld, harg2.read_unread, harg3.read_unread, harg5.read_unread, View.ld_unit_zero (S := S512x3) hz00, View.ld_unit_zero (S := S2048x3) hz00, View.ld_unit_zero (S := S512x1) hz00]

set_option maxHeartbeats 1000000 in
/-- CASE C, the last column block: the scratch ends at the step from `xs`, and the output block at that same value. -/
theorem runC (c : Dev nD) (i : grid1.Coords) (arg2 : Memref sig .tc .vmem S512x3 .f32) (harg2 : arg2.IsWhole) (arg3 : Memref sig .tc .vmem S2048x3 .f32) (harg3 : arg3.IsWhole) (arg4 : Memref sig .tc .vmem S512x1 .f32) (harg4 : arg4.IsWhole) (arg5 : Memref sig .tc .vmem S512x1 .f32) (harg5 : arg5.IsWhole)
    (hc0 : ¬condReset i) (hc1 : condLast i)
    (x0 : Vec F S512x3 .f32) (x1 : Vec F S2048x3 .f32) (xi : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (cover1 _)]
    rw [View.canon_unit_zero hz00]
    simp only [View.readAt_eq_ld, harg2.read_unread, harg3.read_unread, harg5.read_unread, View.ld_unit_zero (S := S512x3) hz00, View.ld_unit_zero (S := S2048x3) hz00, View.ld_unit_zero (S := S512x1) hz00]
    exact View.readCov_unit_zero (S := S512x1) arg5.view hz00 _ _
  iexists _; isplitr
  swap; · iexact HS
  ipureintro
  sl_unfold_words
  rw [View.read_writes_eq_canon _ _ _ (cover1 _)]
  rw [View.canon_unit_zero hz00]
  simp only [View.readAt_eq_ld, harg2.read_unread, harg3.read_unread, harg5.read_unread, View.ld_unit_zero (S := S512x3) hz00, View.ld_unit_zero (S := S2048x3) hz00, View.ld_unit_zero (S := S512x1) hz00]

end Cert.Kernel.Reg1

end
-- ==== Proof.KernelR1Body.lean ====
/-
  Pallas_call 1 of `Kernel` as a pipeline: what its buffers hold after each grid point, and the proof that the body
  keeps it so.

  The grid's 64 points run row block by row block, four column blocks each. After point `n` the scratch holds
  `scAt n`: at the first column block of a row block the step from the splat of `+inf`, afterwards the step from
  what the point before left — a running minimum over the column blocks seen so far in this row block. The output
  window's staging buffer holds that same value at the last column block, which is the only point where it is written
  back; elsewhere it is idle. The two input windows' staging buffers hold their arrays' blocks at every point, fetched
  there or not (the row block's window is fetched once per four points). The region's invariant carries the scratch
  at `scAt (n - 1)` from the second point on, the other scoped buffers at anything, and the generator register.
  Everything is stated at the contents `V` the arrays hold when the region is entered.
-/
import proofs.«123189_j2370821948077_1_alg».proof.Proof.KernelR1Run

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point: where it is not fetched its block index has
    not moved since the point before. -/
theorem beforeIn0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column-block window's likewise (it is fetched at every point). -/
theorem beforeIn1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The running minimum, point by point -/

/-- What the scratch holds after point `n`: the step from `+inf` at the first column block of a row block, from
    what the point before left otherwise. -/
def scAt (c : Dev nD) : (n : ℕ) → n < cfg1.N → Vec F S512x1 .f32
  | 0, hn => k1_pay2 (iblk V c 0 ⟨0, hn⟩) (iblk V c 1 ⟨0, hn⟩) k1_pay1
  | n + 1, hn => k1_pay2 (iblk V c 0 ⟨n + 1, hn⟩) (iblk V c 1 ⟨n + 1, hn⟩)
      (if (n + 1) % 4 = 0 then k1_pay1 else scAt c n (Nat.lt_of_succ_lt hn))

theorem scAt_reset (c : Dev nD) (t : Fin cfg1.N) (h0 : t.val % 4 = 0) :
    scAt V c t.val t.isLt = k1_pay2 (iblk V c 0 t) (iblk V c 1 t) k1_pay1 := by
  obtain ⟨n, hn⟩ := t
  cases n with
  | zero => rfl
  | succ n => exact congrArg (k1_pay2 _ _) (if_pos h0)

theorem scAt_step (c : Dev nD) (t : Fin cfg1.N) (h0 : ¬t.val % 4 = 0) :
    scAt V c t.val t.isLt = k1_pay2 (iblk V c 0 t) (iblk V c 1 t) (scAt V c (t.val - 1) (Nat.lt_of_le_of_lt (Nat.sub_le _ _) t.isLt)) := by
  obtain ⟨n, hn⟩ := t
  cases n with
  | zero => exact absurd (Nat.zero_mod _) h0
  | succ n => exact congrArg (k1_pay2 _ _) (if_neg h0)

/-! ## The invariant -/

/-- The scratch the body carries between points, as a whole-buffer memref. -/
abbrev scM : Memref sig .tc .vmem S512x1 .f32 := Memref.whole cc1_scratch0
/-- The core's other scoped buffers that no window of this call stages: carried unopened. -/
abbrev others (c : Dev nD) : sProp 𝕄 :=
  Pipeline.scopedRestBut (Ix := Unit) (Name := ℕ) (U := UR sig nD τ) (Lvl := ℕ) (Val := Elt F) spec1 c [cc1_scratch0]

/-- The class's invariant with the carried scratch split off. -/
theorem PhiA_eq (c : Dev nD) :
    (Pipeline.ΦA spec1 c : sProp 𝕄) = iprop(((∃ d, owns (c : Thread nD τ) scM fullShare d) ∗ others c) ∗ (∃ r, prngReg c r)) := by
  unfold Pipeline.ΦA
  rw [Pipeline.scopedRest_split_of_list spec1 c [cc1_scratch0] (by decide) (by decide)]
  simp only [scM, owns_whole]
  rfl

/-- Before point `n`: at the very first point the class's invariant (the scratch at anything); afterwards the scratch
    at what point `n - 1` left, the other scoped buffers and the generator register at anything. -/
def PhiS (c : Dev nD) : (n : ℕ) → n ≤ cfg1.N → sProp 𝕄
  | 0, _ => Pipeline.ΦA spec1 c
  | n + 1, hn => iprop((owns (c : Thread nD τ) scM fullShare (scAt V c n hn) ∗ others c) ∗ (∃ r, prngReg c r))

theorem PhiS_succ (c : Dev nD) (n : ℕ) (hn : n < cfg1.N) :
    PhiS V c (n + 1) hn = iprop((owns (c : Thread nD τ) scM fullShare (scAt V c n hn) ∗ others c) ∗ (∃ r, prngReg c r)) := rfl

theorem PhiS_pos (c : Dev nD) (n : ℕ) (h : n ≤ cfg1.N) (hz : n ≠ 0) :
    PhiS V c n h = iprop((owns (c : Thread nD τ) scM fullShare (scAt V c (n - 1) (by omega)) ∗ others c) ∗ (∃ r, prngReg c r)) := by
  cases n with
  | zero => exact absurd rfl hz
  | succ n => rfl

/-- At any point the invariant yields the scratch at SOME contents: all a reset point needs. -/
theorem PhiS_any (c : Dev nD) (n : ℕ) (h : n ≤ cfg1.N) :
    PhiS V c n h ⊢ iprop(((∃ d, owns (c : Thread nD τ) scM fullShare d) ∗ others c) ∗ (∃ r, prngReg c r)) := by
  cases n with
  | zero => rw [show PhiS V c 0 h = Pipeline.ΦA spec1 c from rfl, PhiA_eq]
  | succ n =>
    rw [PhiS_succ]
    iintro ⟨⟨HS, Hoth⟩, Hg⟩
    isplitl [HS Hoth]
    · isplitl [HS]
      · iexists _; iexact HS
      iexact Hoth
    iexact Hg

/-! ## The proof data -/

/-- The pipeline's proof data on core `c`: the arrays as the region finds them; after the body each input's buffer at
    its block and the output's at the running minimum; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => scAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = scAt V c t.val t.isLt := by dsimp only [dat]

theorem before0 (c : Dev nD) (t : Fin cfg1.N) (d) : (dat V c).before 0 t d = iblk V c 0 t :=
  beforeIn0_of V (dat V c) (A_eq V c 0) (after0 V c) t d
theorem before1 (c : Dev nD) (t : Fin cfg1.N) (d) : (dat V c).before 1 t d = iblk V c 1 t :=
  beforeIn1_of V (dat V c) (A_eq V c 1) (after1 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The point's place in its row block says which of the three runs applies; the inputs'
    buffers hold their blocks; the invariant hands over the scratch (at anything for a reset, at what the point before
    left otherwise) and takes it back at this point's running minimum; where the output is idle its buffer goes back
    as it came. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st1_0 t) fullShare ((dat V c).after 0 t) from by
    unfold Dat.leavesExact; rw [liveIn0 t], after0]
  rw [show (dat V c).leavesExact 1 t = owns (c : Thread nD τ) (st1_1 t) fullShare ((dat V c).after 1 t) from by
    unfold Dat.leavesExact; rw [liveIn1 t], after1]
  have hN : t.val < 64 := lt_of_lt_of_eq t.isLt (show cfg1.N = 64 from N_1)
  by_cases h1 : t.val % 4 = 3
  · have h0 : ¬t.val % 4 = 0 := by omega
    have hz : t.val ≠ 0 := by omega
    rw [show (dat V c).leavesExact 2 t = owns (c : Thread nD τ) (st1_2 t) fullShare ((dat V c).after 2 t) from by
      unfold Dat.leavesExact; rw [liveOut t ((hcondLast t).mpr h1)], after2]
    rw [scAt_step V c t h0, PhiS_castSucc V c t, PhiS_pos V c _ _ hz]
    iintro ⟨⟨⟨HS, Hoth⟩, Hg⟩, Ho, ⟨%d0, H0⟩, ⟨%d1, H1⟩, ⟨%d2, H2⟩⟩
    iapply (runC c (grid1.coords t) _ _ _ _ _ _ _ _ (fun h => h0 ((hcondReset t).mp h)) ((hcondLast t).mpr h1) (iblk V c 0 t) (iblk V c 1 t) _ _ Set.univ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat V c) 2 t (idleOut t (fun h => h1 ((hcondLast t).mp h))) (noFlushOut t (fun h => h1 ((hcondLast t).mp h)))]
    by_cases h0 : t.val % 4 = 0
    · rw [scAt_reset V c t h0, PhiS_castSucc V c t]
      iintro ⟨HΦ, Ho, ⟨%d0, H0⟩, ⟨%d1, H1⟩, ⟨%d2, H2⟩⟩
      ihave HΦ' := (PhiS_any V c t.val (Nat.le_of_lt t.isLt)) $$ HΦ
      icases HΦ' with ⟨⟨⟨%ds, HS⟩, Hoth⟩, Hg⟩
      iapply (runA c (grid1.coords t) _ _ _ _ _ _ _ _ ((hcondReset t).mpr h0) (fun h => h1 ((hcondLast t).mp h)) (iblk V c 0 t) (iblk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · have hz : t.val ≠ 0 := fun e => h0 (by rw [e])
      rw [scAt_step V c t h0, PhiS_castSucc V c t, PhiS_pos V c _ _ hz]
      iintro ⟨⟨⟨HS, Hoth⟩, Hg⟩, Ho, ⟨%d0, H0⟩, ⟨%d1, H1⟩, ⟨%d2, H2⟩⟩
      iapply (runB c (grid1.coords t) _ _ _ _ _ _ _ _ (fun h => h0 ((hcondReset t).mp h)) (fun h => h1 ((hcondLast t).mp h)) (iblk V c 0 t) (iblk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the region's entry hands over is the invariant before the first point. -/
theorem Phi_in (c : Dev nD) : Pipeline.ΦA spec1 c ⊢ (dat V c).Φ 0 := by
  rw [show (dat V c).Φ 0 = Pipeline.ΦA spec1 c from rfl]

/-- After the last point the invariant gives the class's back: the scratch's named contents are forgotten. -/
theorem Phi_out (c : Dev nD) : (dat V c).Φ (Fin.last cfg1.N) ⊢ Pipeline.ΦA spec1 c := by
  have hN : cfg1.N = 64 := N_1
  rw [show (dat V c).Φ (Fin.last cfg1.N) = PhiS V c cfg1.N (Nat.le_refl _) from rfl, PhiA_eq]
  exact PhiS_any V c cfg1.N (Nat.le_refl _)

end

end Cert.Kernel.Reg1

end
-- ==== Proof.KernelWhole.lean ====
/-
  The whole of `Kernel`'s @main, from the launch to the return: pallas_call 0, one reshape, pallas_call 1, and the
  ten host operations that average the two vectors of row minima and add the averages.

  The contents of the core's unscoped buffers are followed through the four items: `bufs0` at launch; `bufs1` after
  pallas_call 0 (its output array at what the pipeline's write-backs leave, every other buffer as before); `bufs2`
  after the reshape; `bufs3` after pallas_call 1; `bufs4` after the host tail. Each pallas_call's proof data are
  stated at the contents it is entered from. Between items the thread holds every unscoped buffer at those contents,
  the generator register at some state, and owes nothing. The run's post reads every unscoped buffer off `bufs4`:
  the arguments, which no item writes, read back as launched, and the result is read from the same post.
-/
import proofs.«123189_j2370821948077_1_alg».proof.Proof.KernelR0Body
import proofs.«123189_j2370821948077_1_alg».proof.Proof.KernelR1Body
import proofs.«123189_j2370821948077_1_alg».proof.Proof.Gen.Kernel.Regions
import Idealize.ShloMosaic.Lib.Pipeline.RegionsLoop

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- At launch. -/
abbrev bufs0 : Dev nD → Valuation τ sig (Elt F) := fun c b => m (c, b)
/-- The same read at the TensorCore's references: what pallas_call 0 is entered from. -/
abbrev ent0 : (c : Dev nD) → (b : Ref sig .tc) → Buf (Elt F) ((c : Thread nD τ).loc b) := fun c b => bufs0 m c b
/-- After pallas_call 0: its arrays at what the pipeline leaves, every other buffer as entered. -/
def bufs1 (c : Dev nD) : Valuation τ sig (Elt F) :=
  Pipeline.withArrays spec0 c (bufs0 m c) fun w => (Reg0.dat (ent0 m) c).arrAt w cfg0.N
theorem bufs1_arr (c : Dev nD) (w : Fin cfg0.W) :
    bufs1 m c (Proc.devRef .tc (Pipeline.arrRef spec0 w)) = (Reg0.dat (ent0 m) c).arrAt w cfg0.N := by
  unfold bufs1; exact Pipeline.withArrays_arr spec0 launch0.win.arr_inj c _ _ w
theorem bufs1_of_ne (c : Dev nD) (b : Ref sig .tc) (hb : ∀ w, Pipeline.arrRef spec0 w ≠ b) :
    bufs1 m c (Proc.devRef .tc b) = bufs0 m c (Proc.devRef .tc b) := by
  unfold bufs1; exact Pipeline.withArrays_of_ne spec0 c _ _ b hb
abbrev ext0 : (c : Dev nD) → (b : Ref sig .tc) → Buf (Elt F) ((c : Thread nD τ).loc b) := fun c b => bufs1 m c b
theorem hF0 (c : Dev nD) (w : Fin cfg0.W) : (Reg0.dat (ent0 m) c).arrAt w cfg0.N = ext0 m c (Pipeline.arrRef spec0 w) :=
  (bufs1_arr m c w).symm
theorem hrest0 (c : Dev nD) : ∀ b, b ∉ Finset.univ.image (Pipeline.arrRef spec0) → ext0 m c b = ent0 m c b :=
  fun b hb => bufs1_of_ne m c b fun w e => hb (Finset.mem_image.mpr ⟨w, Finset.mem_univ _, e⟩)

/-- After the reshape between the two calls. -/
abbrev bufs2 : Dev nD → Valuation τ sig (Elt F) := fun c => StableHlo.after hostOps1 (bufs1 m c)
abbrev ent1 : (c : Dev nD) → (b : Ref sig .tc) → Buf (Elt F) ((c : Thread nD τ).loc b) := fun c b => bufs2 m c b
/-- After pallas_call 1. -/
def bufs3 (c : Dev nD) : Valuation τ sig (Elt F) :=
  Pipeline.withArrays spec1 c (bufs2 m c) fun w => (Reg1.dat (ent1 m) c).arrAt w cfg1.N
theorem bufs3_arr (c : Dev nD) (w : Fin cfg1.W) :
    bufs3 m c (Proc.devRef .tc (Pipeline.arrRef spec1 w)) = (Reg1.dat (ent1 m) c).arrAt w cfg1.N := by
  unfold bufs3; exact Pipeline.withArrays_arr spec1 launch1.win.arr_inj c _ _ w
theorem bufs3_of_ne (c : Dev nD) (b : Ref sig .tc) (hb : ∀ w, Pipeline.arrRef spec1 w ≠ b) :
    bufs3 m c (Proc.devRef .tc b) = bufs2 m c (Proc.devRef .tc b) := by
  unfold bufs3; exact Pipeline.withArrays_of_ne spec1 c _ _ b hb
abbrev ext1 : (c : Dev nD) → (b : Ref sig .tc) → Buf (Elt F) ((c : Thread nD τ).loc b) := fun c b => bufs3 m c b
theorem hF1 (c : Dev nD) (w : Fin cfg1.W) : (Reg1.dat (ent1 m) c).arrAt w cfg1.N = ext1 m c (Pipeline.arrRef spec1 w) :=
  (bufs3_arr m c w).symm
theorem hrest1 (c : Dev nD) : ∀ b, b ∉ Finset.univ.image (Pipeline.arrRef spec1) → ext1 m c b = ent1 m c b :=
  fun b hb => bufs3_of_ne m c b fun w e => hb (Finset.mem_image.mpr ⟨w, Finset.mem_univ _, e⟩)

/-- After the host tail: what the program returns with. -/
abbrev bufs4 : Dev nD → Valuation τ sig (Elt F) := fun c => StableHlo.after hostOps2 (bufs3 m c)

/-! ## No item writes an argument -/

/-- The first argument is pallas_call 0's row-block array and pallas_call 1's column-block array: an input of both,
    so each leaves it as entered; no host operation writes it. -/
theorem bufs4_main_arg0 (c : Dev nD) : bufs4 m c (Proc.devRef .tc main_arg0) = m ((c : Thread nD τ).loc main_arg0) :=
  calc bufs4 m c (Proc.devRef .tc main_arg0)
    _ = bufs3 m c (Proc.devRef .tc main_arg0) := StableHlo.after_of_writes_sub hostOps2 _ hostOps2_writes (by decide)
    _ = bufs2 m c (Proc.devRef .tc main_arg0) := (bufs3_arr m c 1).trans (((Reg1.dat (ent1 m) c).arrAt_in 1 rfl _).trans (Reg1.A_eq (ent1 m) c 1))
    _ = bufs1 m c (Proc.devRef .tc main_arg0) := StableHlo.after_of_writes_sub hostOps1 _ hostOps1_writes (by decide)
    _ = bufs0 m c (Proc.devRef .tc main_arg0) := (bufs1_arr m c 0).trans (((Reg0.dat (ent0 m) c).arrAt_in 0 rfl _).trans (Reg0.A_eq (ent0 m) c 0))
    _ = m ((c : Thread nD τ).loc main_arg0) := rfl
/-- The second argument likewise, with the two roles exchanged. -/
theorem bufs4_main_arg1 (c : Dev nD) : bufs4 m c (Proc.devRef .tc main_arg1) = m ((c : Thread nD τ).loc main_arg1) :=
  calc bufs4 m c (Proc.devRef .tc main_arg1)
    _ = bufs3 m c (Proc.devRef .tc main_arg1) := StableHlo.after_of_writes_sub hostOps2 _ hostOps2_writes (by decide)
    _ = bufs2 m c (Proc.devRef .tc main_arg1) := (bufs3_arr m c 0).trans (((Reg1.dat (ent1 m) c).arrAt_in 0 rfl _).trans (Reg1.A_eq (ent1 m) c 0))
    _ = bufs1 m c (Proc.devRef .tc main_arg1) := StableHlo.after_of_writes_sub hostOps1 _ hostOps1_writes (by decide)
    _ = bufs0 m c (Proc.devRef .tc main_arg1) := (bufs1_arr m c 1).trans (((Reg0.dat (ent0 m) c).arrAt_in 1 rfl _).trans (Reg0.A_eq (ent0 m) c 1))
    _ = m ((c : Thread nD τ).loc main_arg1) := rfl

/-! ## The proof data family and the thread state -/

/-- Every pipeline's proof data, each at its region's entry contents: a literal match, so that the library's pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => Reg0.dat (ent0 m) c
  | ⟨1, _⟩ => fun c => Reg1.dat (ent1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `bufs4`, the generator register at some state. -/
abbrev Tₙ (c : Dev nD) : sProp 𝕄 := iprop(StableHlo.held (c : Thread nD τ) (Pipeline.ucRefs τ sig) (bufs4 m c) ∗ ∃ r, prngReg c r)

/-! ## The two pallas_calls as segments -/

-- the library's lemmas are stated over the pinned configuration; unifying with it unfolds plain definitions in a metavariable's type
set_option backward.isDefEq.respectTransparency.types false in
/-- Pallas_call 0 as a segment: entered with every unscoped buffer at `bufs0`, left with them at `bufs1`. Its arrays
    are split out of the unscoped buffers at entry and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (ent0 m) c).loose
  hwaits := Pipeline.hwaits_of_owed_zero _ _ _ _ L lv 0 fun _ _ => rfl
  pre c := iprop(StableHlo.held (c : Thread nD τ) (Pipeline.ucRefs τ sig) (bufs0 m c) ∗ R c)
  post c := iprop(StableHlo.held (c : Thread nD τ) (Pipeline.ucRefs τ sig) (bufs1 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest (Ix := Unit) (Name := ℕ) (U := UR sig nD τ) (Lvl := ℕ) (Val := Elt F) spec0 c ∗ ∃ r, prngReg c r)
        ⊢ (pdats m 0 c).Φ 0 := by
      have h' := Reg0.Phi_in (ent0 m) c
      unfold Pipeline.ΦA at h'
      exact h'
    iintro ⟨Hp, -, Hr⟩
    iapply h
    isplitl [Hr]; · iexact Hr
    iexact Hp
  hout c := by
    have h : (pdats m 0 c).Φ (Fin.last _)
        ⊢ iprop(Pipeline.scopedRest (Ix := Unit) (Name := ℕ) (U := UR sig nD τ) (Lvl := ℕ) (Val := Elt F) spec0 c ∗ ∃ r, prngReg c r) := by
      have h' := Reg0.Phi_out (ent0 m) c
      unfold Pipeline.ΦA at h'
      exact h'
    rw [Pipeline.ownSems0_none]
    iintro Hinv
    ihave H := h $$ Hinv
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying with it unfolds plain definitions in a metavariable's type
set_option backward.isDefEq.respectTransparency.types false in
/-- Pallas_call 1 as a segment: entered with every unscoped buffer at `bufs2`, left with them at `bufs3`. Its arrays
    are split out of the unscoped buffers at entry and put back at the exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (ent1 m) c).loose
  hwaits := Pipeline.hwaits_of_owed_zero _ _ _ _ L lv 1 fun _ _ => rfl
  pre c := iprop(StableHlo.held (c : Thread nD τ) (Pipeline.ucRefs τ sig) (bufs2 m c) ∗ R c)
  post c := iprop(StableHlo.held (c : Thread nD τ) (Pipeline.ucRefs τ sig) (bufs3 m c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest (Ix := Unit) (Name := ℕ) (U := UR sig nD τ) (Lvl := ℕ) (Val := Elt F) spec1 c ∗ ∃ r, prngReg c r)
        ⊢ (pdats m 1 c).Φ 0 := by
      have h' := Reg1.Phi_in (ent1 m) c
      unfold Pipeline.ΦA at h'
      exact h'
    iintro ⟨Hp, -, Hr⟩
    iapply h
    isplitl [Hr]; · iexact Hr
    iexact Hp
  hout c := by
    have h : (pdats m 1 c).Φ (Fin.last _)
        ⊢ iprop(Pipeline.scopedRest (Ix := Unit) (Name := ℕ) (U := UR sig nD τ) (Lvl := ℕ) (Val := Elt F) spec1 c ∗ ∃ r, prngReg c r) := by
      have h' := Reg1.Phi_out (ent1 m) c
      unfold Pipeline.ΦA at h'
      exact h'
    rw [Pipeline.ownSems0_none]
    iintro Hinv
    ihave H := h $$ Hinv
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its four items, and the run -/

abbrev items : List (Pipeline.Seg (pcfgs (F := F)) adm (pdats m) () defs₀ 𝒱₀ L lv) :=
  [ .region (reg0 m),
    .host (hseg hostOps1 hostOps1_sub hostOps1_fresh (bufs1 m)),
    .region (reg1 m),
    .host (hseg hostOps2 hostOps2_sub hostOps2_fresh (bufs3 m)) ]

theorem main_run (c : Dev nD) : main (F := F) c = Pipeline.Seg.run (items m) :=
  main_segs adm (pdats m) () 𝒱₀ L lv (hseg hostOps1 hostOps1_sub hostOps1_fresh (bufs1 m)) (hseg hostOps2 hostOps2_sub hostOps2_fresh (bufs3 m))
    (reg0 m) (reg1 m) rfl rfl c

set_option backward.isDefEq.respectTransparency.types false in
/-- THE RUN. From any memory with zero counters every weakly fair execution of @main terminates, nothing faulting, and the
    final memory holds every unscoped buffer of each core at `bufs4`. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = bufs4 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bufs0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (bufs4 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (bufs0 m c)
        from Pipeline.unscopedBufs_held c (bufs0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bufs4 m c b)
    (hfin := fun c s' => by
      iintro ⟨⟨Hh, -⟩, HSI⟩
      unfold StableHlo.held
      imodintro
      iapply (pointsTo_read_all (Pipeline.ucRefs τ sig) (fun b => (((c : Thread nD τ)).1, b)) (bufs4 m c) s')
      isplitl [Hh] <;> iassumption)
    (hQ := fun _ h => h)

/-- THE FRAME: the run's post read at the two arguments. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (bufs4_main_arg0 m c),
     (h c _ (mem_uc main_arg1 (by decide))).trans (bufs4_main_arg1 m c)⟩) (run_all m ρ)

end Cert.Kernel.Whole

end
-- ==== Proof.KIdealR0Run.lean ====
/-
  The kernel body of pallas_call 0 of `KernelIdeal`, run once in each of the three ways its two conditionals can fall.

  The grid is 16 × 4: point `t` is row block `t / 4` against column block `t % 4`. The body keeps a running
  minimum in a scratch buffer: at the first column block (`t % 4 = 0`) it resets the scratch to `+inf`; at every
  point it replaces the scratch by `min scratch tile`, where `tile` is the row-wise least distance from the 512
  points of the row block to the 2048 points of the column block; at the last column block (`t % 4 = 3`) it copies
  the scratch into the output block. So there are three cases — reset (A), plain step (B), step and copy-out (C) —
  and in each the buffers end at values named outright: the scratch at `k0_pay2 x y s` (`s` what it held, or
  the splat `k0_pay1` of `+inf` after a reset), the output block at the same value in case C and untouched
  otherwise, the two input blocks unchanged. Every load and store is of a whole buffer, so reading back what a
  store left is reading its payload.
-/
import proofs.«123189_j2370821948077_1_alg».proof.Proof.Gen.KernelIdeal.Launch
import proofs.«123189_j2370821948077_1_alg».proof.Proof.Gen.KernelIdeal.Skeleton
import proofs.«123189_j2370821948077_1_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The body resets its scratch exactly when the column-block coordinate is zero. -/
abbrev condReset (i : grid0.Coords) : Prop := (Scalar.cmpi .ne (Scalar.extui (Scalar.cmpi .eq (BitVec.ofNat 32 (i 1).val) 0#32)) 0#32) = 1#1
/-- It copies the scratch out exactly when the column-block coordinate is the last one. -/
abbrev condLast (i : grid0.Coords) : Prop := k0_cond2 i = 1#1

theorem hcondReset : ∀ t : Fin cfg0.N, condReset (grid0.coords t) ↔ t.val % 4 = 0 :=
  (by decide +kernel : ∀ t : Fin grid0.N, condReset (grid0.coords t) ↔ t.val % 4 = 0)
theorem hcondLast : ∀ t : Fin cfg0.N, condLast (grid0.coords t) ↔ t.val % 4 = 3 :=
  (by decide +kernel : ∀ t : Fin grid0.N, condLast (grid0.coords t) ↔ t.val % 4 = 3)

/-! ## Where the windows are idle: the inputs never, the output wherever the body does not copy out -/

theorem liveIn0 : ∀ t : Fin cfg0.N, cfg0.idle 0 (grid0.coords t) = false := by decide +kernel
theorem liveIn1 : ∀ t : Fin cfg0.N, cfg0.idle 1 (grid0.coords t) = false := by decide +kernel
theorem idleOut : ∀ t : Fin cfg0.N, ¬condLast (grid0.coords t) → cfg0.idle 2 (grid0.coords t) = true := by decide +kernel
theorem noFlushOut : ∀ t : Fin cfg0.N, ¬condLast (grid0.coords t) → (cfg0.win 2).flush t = false := by decide +kernel
theorem liveOut : ∀ t : Fin cfg0.N, condLast (grid0.coords t) → cfg0.idle 2 (grid0.coords t) = false := by decide +kernel

/-! ## One whole-buffer store covers the buffer -/

theorem hz00 : (![0, 0] : Fin 2 → Nat) = fun _ => 0 := by funext a; fin_cases a <;> rfl

/-- The rectangle of every access to a 512 × 1 buffer: all of it. -/
abbrev rS : Rect S512x1 := Rect.unit (s := S512x1) ![0, 0] S512x1.size inb_S512x1_S512x1_0_0
theorem cover1 (p0 : Vec F S512x1 .f32) (y : S512x1.Idx) :
    ∃ pc ∈ ([⟨rS, p0⟩] : List (View.Piece (Elt F) S512x1 .f32)), y ∈ pc.1.set :=
  ⟨⟨rS, p0⟩, List.mem_singleton_self _, View.mem_set_unit_zero (S := S512x1) hz00 inb_S512x1_S512x1_0_0 y⟩
theorem cover2 (p0 p1 : Vec F S512x1 .f32) (y : S512x1.Idx) :
    ∃ pc ∈ ([⟨rS, p0⟩, ⟨rS, p1⟩] : List (View.Piece (Elt F) S512x1 .f32)), y ∈ pc.1.set :=
  ⟨⟨rS, p0⟩, List.mem_cons_self .., View.mem_set_unit_zero (S := S512x1) hz00 inb_S512x1_S512x1_0_0 y⟩

/-! ## The three runs -/

set_option maxHeartbeats 1000000 in
/-- CASE A, a reset point: whatever the scratch held, it ends at the step from the splat of `+inf`; the output block is not touched. -/
theorem runA (c : Dev nD) (i : grid0.Coords) (arg2 : Memref sig .tc .vmem S512x3 .f32) (harg2 : arg2.IsWhole) (arg3 : Memref sig .tc .vmem S2048x3 .f32) (harg3 : arg3.IsWhole) (arg4 : Memref sig .tc .vmem S512x1 .f32) (harg4 : arg4.IsWhole) (arg5 : Memref sig .tc .vmem S512x1 .f32) (harg5 : arg5.IsWhole)
    (hc0 : condReset i) (hc1 : ¬condLast i)
    (x0 : Vec F S512x3 .f32) (x1 : Vec F S2048x3 .f32) (xi : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k0_pay2 x0 x1 k0_pay1)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (cover2 _ _)]
  rw [View.canon_cons_unit_zero hz00]
  simp only [View.readAt_eq_ld, harg2.read_unread, harg3.read_unread, harg5.read_unread, View.ld_unit_zero (S := S512x3) hz00, View.ld_unit_zero (S := S2048x3) hz00, View.ld_unit_zero (S := S512x1) hz00]
  rw [View.readCov_unit_zero (S := S512x1) arg5.view hz00]

set_option maxHeartbeats 1000000 in
/-- CASE B, a plain step: the scratch `xs` ends at the step from `xs`; the output block is not touched. -/
theorem runB (c : Dev nD) (i : grid0.Coords) (arg2 : Memref sig .tc .vmem S512x3 .f32) (harg2 : arg2.IsWhole) (arg3 : Memref sig .tc .vmem S2048x3 .f32) (harg3 : arg3.IsWhole) (arg4 : Memref sig .tc .vmem S512x1 .f32) (harg4 : arg4.IsWhole) (arg5 : Memref sig .tc .vmem S512x1 .f32) (harg5 : arg5.IsWhole)
    (hc0 : ¬condReset i) (hc1 : ¬condLast i)
    (x0 : Vec F S512x3 .f32) (x1 : Vec F S2048x3 .f32) (xi : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k0_pay2 x0 x1 xs)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (cover1 _)]
  rw [View.canon_unit_zero hz00]
  simp only [View.readAt_eq_ld, harg2.read_unread, harg3.read_unread, harg5.read_unread, View.ld_unit_zero (S := S512x3) hz00, View.ld_unit_zero (S := S2048x3) hz00, View.ld_unit_zero (S := S512x1) hz00]

set_option maxHeartbeats 1000000 in
/-- CASE C, the last column block: the scratch ends at the step from `xs`, and the output block at that same value. -/
theorem runC (c : Dev nD) (i : grid0.Coords) (arg2 : Memref sig .tc .vmem S512x3 .f32) (harg2 : arg2.IsWhole) (arg3 : Memref sig .tc .vmem S2048x3 .f32) (harg3 : arg3.IsWhole) (arg4 : Memref sig .tc .vmem S512x1 .f32) (harg4 : arg4.IsWhole) (arg5 : Memref sig .tc .vmem S512x1 .f32) (harg5 : arg5.IsWhole)
    (hc0 : ¬condReset i) (hc1 : condLast i)
    (x0 : Vec F S512x3 .f32) (x1 : Vec F S2048x3 .f32) (xi : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (cover1 _)]
    rw [View.canon_unit_zero hz00]
    simp only [View.readAt_eq_ld, harg2.read_unread, harg3.read_unread, harg5.read_unread, View.ld_unit_zero (S := S512x3) hz00, View.ld_unit_zero (S := S2048x3) hz00, View.ld_unit_zero (S := S512x1) hz00]
    exact View.readCov_unit_zero (S := S512x1) arg5.view hz00 _ _
  iexists _; isplitr
  swap; · iexact HS
  ipureintro
  sl_unfold_words
  rw [View.read_writes_eq_canon _ _ _ (cover1 _)]
  rw [View.canon_unit_zero hz00]
  simp only [View.readAt_eq_ld, harg2.read_unread, harg3.read_unread, harg5.read_unread, View.ld_unit_zero (S := S512x3) hz00, View.ld_unit_zero (S := S2048x3) hz00, View.ld_unit_zero (S := S512x1) hz00]

end Cert.KernelIdeal.Reg0

end
-- ==== Proof.KIdealR0Body.lean ====
/-
  Pallas_call 0 of `KernelIdeal` as a pipeline: what its buffers hold after each grid point, and the proof that the body
  keeps it so.

  The grid's 64 points run row block by row block, four column blocks each. After point `n` the scratch holds
  `scAt n`: at the first column block of a row block the step from the splat of `+inf`, afterwards the step from
  what the point before left — a running minimum over the column blocks seen so far in this row block. The output
  window's staging buffer holds that same value at the last column block, which is the only point where it is written
  back; elsewhere it is idle. The two input windows' staging buffers hold their arrays' blocks at every point, fetched
  there or not (the row block's window is fetched once per four points). The region's invariant carries the scratch
  at `scAt (n - 1)` from the second point on, the other scoped buffers at anything, and the generator register.
  Everything is stated at the contents `V` the arrays hold when the region is entered.
-/
import proofs.«123189_j2370821948077_1_alg».proof.Proof.KIdealR0Run

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point: where it is not fetched its block index has
    not moved since the point before. -/
theorem beforeIn0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column-block window's likewise (it is fetched at every point). -/
theorem beforeIn1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The running minimum, point by point -/

/-- What the scratch holds after point `n`: the step from `+inf` at the first column block of a row block, from
    what the point before left otherwise. -/
def scAt (c : Dev nD) : (n : ℕ) → n < cfg0.N → Vec F S512x1 .f32
  | 0, hn => k0_pay2 (iblk V c 0 ⟨0, hn⟩) (iblk V c 1 ⟨0, hn⟩) k0_pay1
  | n + 1, hn => k0_pay2 (iblk V c 0 ⟨n + 1, hn⟩) (iblk V c 1 ⟨n + 1, hn⟩)
      (if (n + 1) % 4 = 0 then k0_pay1 else scAt c n (Nat.lt_of_succ_lt hn))

theorem scAt_reset (c : Dev nD) (t : Fin cfg0.N) (h0 : t.val % 4 = 0) :
    scAt V c t.val t.isLt = k0_pay2 (iblk V c 0 t) (iblk V c 1 t) k0_pay1 := by
  obtain ⟨n, hn⟩ := t
  cases n with
  | zero => rfl
  | succ n => exact congrArg (k0_pay2 _ _) (if_pos h0)

theorem scAt_step (c : Dev nD) (t : Fin cfg0.N) (h0 : ¬t.val % 4 = 0) :
    scAt V c t.val t.isLt = k0_pay2 (iblk V c 0 t) (iblk V c 1 t) (scAt V c (t.val - 1) (Nat.lt_of_le_of_lt (Nat.sub_le _ _) t.isLt)) := by
  obtain ⟨n, hn⟩ := t
  cases n with
  | zero => exact absurd (Nat.zero_mod _) h0
  | succ n => exact congrArg (k0_pay2 _ _) (if_neg h0)

/-! ## The invariant -/

/-- The scratch the body carries between points, as a whole-buffer memref. -/
abbrev scM : Memref sig .tc .vmem S512x1 .f32 := Memref.whole cc0_scratch0
/-- The core's other scoped buffers that no window of this call stages: carried unopened. -/
abbrev others (c : Dev nD) : sProp 𝕄 :=
  Pipeline.scopedRestBut (Ix := Unit) (Name := ℕ) (U := UR sig nD τ) (Lvl := ℕ) (Val := Elt F) spec0 c [cc0_scratch0]

/-- The class's invariant with the carried scratch split off. -/
theorem PhiA_eq (c : Dev nD) :
    (Pipeline.ΦA spec0 c : sProp 𝕄) = iprop(((∃ d, owns (c : Thread nD τ) scM fullShare d) ∗ others c) ∗ (∃ r, prngReg c r)) := by
  unfold Pipeline.ΦA
  rw [Pipeline.scopedRest_split_of_list spec0 c [cc0_scratch0] (by decide) (by decide)]
  simp only [scM, owns_whole]
  rfl

/-- Before point `n`: at the very first point the class's invariant (the scratch at anything); afterwards the scratch
    at what point `n - 1` left, the other scoped buffers and the generator register at anything. -/
def PhiS (c : Dev nD) : (n : ℕ) → n ≤ cfg0.N → sProp 𝕄
  | 0, _ => Pipeline.ΦA spec0 c
  | n + 1, hn => iprop((owns (c : Thread nD τ) scM fullShare (scAt V c n hn) ∗ others c) ∗ (∃ r, prngReg c r))

theorem PhiS_succ (c : Dev nD) (n : ℕ) (hn : n < cfg0.N) :
    PhiS V c (n + 1) hn = iprop((owns (c : Thread nD τ) scM fullShare (scAt V c n hn) ∗ others c) ∗ (∃ r, prngReg c r)) := rfl

theorem PhiS_pos (c : Dev nD) (n : ℕ) (h : n ≤ cfg0.N) (hz : n ≠ 0) :
    PhiS V c n h = iprop((owns (c : Thread nD τ) scM fullShare (scAt V c (n - 1) (by omega)) ∗ others c) ∗ (∃ r, prngReg c r)) := by
  cases n with
  | zero => exact absurd rfl hz
  | succ n => rfl

/-- At any point the invariant yields the scratch at SOME contents: all a reset point needs. -/
theorem PhiS_any (c : Dev nD) (n : ℕ) (h : n ≤ cfg0.N) :
    PhiS V c n h ⊢ iprop(((∃ d, owns (c : Thread nD τ) scM fullShare d) ∗ others c) ∗ (∃ r, prngReg c r)) := by
  cases n with
  | zero => rw [show PhiS V c 0 h = Pipeline.ΦA spec0 c from rfl, PhiA_eq]
  | succ n =>
    rw [PhiS_succ]
    iintro ⟨⟨HS, Hoth⟩, Hg⟩
    isplitl [HS Hoth]
    · isplitl [HS]
      · iexists _; iexact HS
      iexact Hoth
    iexact Hg

/-! ## The proof data -/

/-- The pipeline's proof data on core `c`: the arrays as the region finds them; after the body each input's buffer at
    its block and the output's at the running minimum; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => scAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = scAt V c t.val t.isLt := by dsimp only [dat]

theorem before0 (c : Dev nD) (t : Fin cfg0.N) (d) : (dat V c).before 0 t d = iblk V c 0 t :=
  beforeIn0_of V (dat V c) (A_eq V c 0) (after0 V c) t d
theorem before1 (c : Dev nD) (t : Fin cfg0.N) (d) : (dat V c).before 1 t d = iblk V c 1 t :=
  beforeIn1_of V (dat V c) (A_eq V c 1) (after1 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The point's place in its row block says which of the three runs applies; the inputs'
    buffers hold their blocks; the invariant hands over the scratch (at anything for a reset, at what the point before
    left otherwise) and takes it back at this point's running minimum; where the output is idle its buffer goes back
    as it came. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st0_0 t) fullShare ((dat V c).after 0 t) from by
    unfold Dat.leavesExact; rw [liveIn0 t], after0]
  rw [show (dat V c).leavesExact 1 t = owns (c : Thread nD τ) (st0_1 t) fullShare ((dat V c).after 1 t) from by
    unfold Dat.leavesExact; rw [liveIn1 t], after1]
  have hN : t.val < 64 := lt_of_lt_of_eq t.isLt (show cfg0.N = 64 from N_0)
  by_cases h1 : t.val % 4 = 3
  · have h0 : ¬t.val % 4 = 0 := by omega
    have hz : t.val ≠ 0 := by omega
    rw [show (dat V c).leavesExact 2 t = owns (c : Thread nD τ) (st0_2 t) fullShare ((dat V c).after 2 t) from by
      unfold Dat.leavesExact; rw [liveOut t ((hcondLast t).mpr h1)], after2]
    rw [scAt_step V c t h0, PhiS_castSucc V c t, PhiS_pos V c _ _ hz]
    iintro ⟨⟨⟨HS, Hoth⟩, Hg⟩, Ho, ⟨%d0, H0⟩, ⟨%d1, H1⟩, ⟨%d2, H2⟩⟩
    iapply (runC c (grid0.coords t) _ _ _ _ _ _ _ _ (fun h => h0 ((hcondReset t).mp h)) ((hcondLast t).mpr h1) (iblk V c 0 t) (iblk V c 1 t) _ _ Set.univ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat V c) 2 t (idleOut t (fun h => h1 ((hcondLast t).mp h))) (noFlushOut t (fun h => h1 ((hcondLast t).mp h)))]
    by_cases h0 : t.val % 4 = 0
    · rw [scAt_reset V c t h0, PhiS_castSucc V c t]
      iintro ⟨HΦ, Ho, ⟨%d0, H0⟩, ⟨%d1, H1⟩, ⟨%d2, H2⟩⟩
      ihave HΦ' := (PhiS_any V c t.val (Nat.le_of_lt t.isLt)) $$ HΦ
      icases HΦ' with ⟨⟨⟨%ds, HS⟩, Hoth⟩, Hg⟩
      iapply (runA c (grid0.coords t) _ _ _ _ _ _ _ _ ((hcondReset t).mpr h0) (fun h => h1 ((hcondLast t).mp h)) (iblk V c 0 t) (iblk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · have hz : t.val ≠ 0 := fun e => h0 (by rw [e])
      rw [scAt_step V c t h0, PhiS_castSucc V c t, PhiS_pos V c _ _ hz]
      iintro ⟨⟨⟨HS, Hoth⟩, Hg⟩, Ho, ⟨%d0, H0⟩, ⟨%d1, H1⟩, ⟨%d2, H2⟩⟩
      iapply (runB c (grid0.coords t) _ _ _ _ _ _ _ _ (fun h => h0 ((hcondReset t).mp h)) (fun h => h1 ((hcondLast t).mp h)) (iblk V c 0 t) (iblk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the region's entry hands over is the invariant before the first point. -/
theorem Phi_in (c : Dev nD) : Pipeline.ΦA spec0 c ⊢ (dat V c).Φ 0 := by
  rw [show (dat V c).Φ 0 = Pipeline.ΦA spec0 c from rfl]

/-- After the last point the invariant gives the class's back: the scratch's named contents are forgotten. -/
theorem Phi_out (c : Dev nD) : (dat V c).Φ (Fin.last cfg0.N) ⊢ Pipeline.ΦA spec0 c := by
  have hN : cfg0.N = 64 := N_0
  rw [show (dat V c).Φ (Fin.last cfg0.N) = PhiS V c cfg0.N (Nat.le_refl _) from rfl, PhiA_eq]
  exact PhiS_any V c cfg0.N (Nat.le_refl _)

end

end Cert.KernelIdeal.Reg0

end
-- ==== Proof.KIdealR1Run.lean ====
/-
  The kernel body of pallas_call 1 of `KernelIdeal`, run once in each of the three ways its two conditionals can fall.

  The grid is 16 × 4: point `t` is row block `t / 4` against column block `t % 4`. The body keeps a running
  minimum in a scratch buffer: at the first column block (`t % 4 = 0`) it resets the scratch to `+inf`; at every
  point it replaces the scratch by `min scratch tile`, where `tile` is the row-wise least distance from the 512
  points of the row block to the 2048 points of the column block; at the last column block (`t % 4 = 3`) it copies
  the scratch into the output block. So there are three cases — reset (A), plain step (B), step and copy-out (C) —
  and in each the buffers end at values named outright: the scratch at `k1_pay2 x y s` (`s` what it held, or
  the splat `k1_pay1` of `+inf` after a reset), the output block at the same value in case C and untouched
  otherwise, the two input blocks unchanged. Every load and store is of a whole buffer, so reading back what a
  store left is reading its payload.
-/
import proofs.«123189_j2370821948077_1_alg».proof.Proof.Gen.KernelIdeal.Launch
import proofs.«123189_j2370821948077_1_alg».proof.Proof.Gen.KernelIdeal.Skeleton
import proofs.«123189_j2370821948077_1_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The body resets its scratch exactly when the column-block coordinate is zero. -/
abbrev condReset (i : grid1.Coords) : Prop := (Scalar.cmpi .ne (Scalar.extui (Scalar.cmpi .eq (BitVec.ofNat 32 (i 1).val) 0#32)) 0#32) = 1#1
/-- It copies the scratch out exactly when the column-block coordinate is the last one. -/
abbrev condLast (i : grid1.Coords) : Prop := k1_cond2 i = 1#1

theorem hcondReset : ∀ t : Fin cfg1.N, condReset (grid1.coords t) ↔ t.val % 4 = 0 :=
  (by decide +kernel : ∀ t : Fin grid1.N, condReset (grid1.coords t) ↔ t.val % 4 = 0)
theorem hcondLast : ∀ t : Fin cfg1.N, condLast (grid1.coords t) ↔ t.val % 4 = 3 :=
  (by decide +kernel : ∀ t : Fin grid1.N, condLast (grid1.coords t) ↔ t.val % 4 = 3)

/-! ## Where the windows are idle: the inputs never, the output wherever the body does not copy out -/

theorem liveIn0 : ∀ t : Fin cfg1.N, cfg1.idle 0 (grid1.coords t) = false := by decide +kernel
theorem liveIn1 : ∀ t : Fin cfg1.N, cfg1.idle 1 (grid1.coords t) = false := by decide +kernel
theorem idleOut : ∀ t : Fin cfg1.N, ¬condLast (grid1.coords t) → cfg1.idle 2 (grid1.coords t) = true := by decide +kernel
theorem noFlushOut : ∀ t : Fin cfg1.N, ¬condLast (grid1.coords t) → (cfg1.win 2).flush t = false := by decide +kernel
theorem liveOut : ∀ t : Fin cfg1.N, condLast (grid1.coords t) → cfg1.idle 2 (grid1.coords t) = false := by decide +kernel

/-! ## One whole-buffer store covers the buffer -/

theorem hz00 : (![0, 0] : Fin 2 → Nat) = fun _ => 0 := by funext a; fin_cases a <;> rfl

/-- The rectangle of every access to a 512 × 1 buffer: all of it. -/
abbrev rS : Rect S512x1 := Rect.unit (s := S512x1) ![0, 0] S512x1.size inb_S512x1_S512x1_0_0
theorem cover1 (p0 : Vec F S512x1 .f32) (y : S512x1.Idx) :
    ∃ pc ∈ ([⟨rS, p0⟩] : List (View.Piece (Elt F) S512x1 .f32)), y ∈ pc.1.set :=
  ⟨⟨rS, p0⟩, List.mem_singleton_self _, View.mem_set_unit_zero (S := S512x1) hz00 inb_S512x1_S512x1_0_0 y⟩
theorem cover2 (p0 p1 : Vec F S512x1 .f32) (y : S512x1.Idx) :
    ∃ pc ∈ ([⟨rS, p0⟩, ⟨rS, p1⟩] : List (View.Piece (Elt F) S512x1 .f32)), y ∈ pc.1.set :=
  ⟨⟨rS, p0⟩, List.mem_cons_self .., View.mem_set_unit_zero (S := S512x1) hz00 inb_S512x1_S512x1_0_0 y⟩

/-! ## The three runs -/

set_option maxHeartbeats 1000000 in
/-- CASE A, a reset point: whatever the scratch held, it ends at the step from the splat of `+inf`; the output block is not touched. -/
theorem runA (c : Dev nD) (i : grid1.Coords) (arg2 : Memref sig .tc .vmem S512x3 .f32) (harg2 : arg2.IsWhole) (arg3 : Memref sig .tc .vmem S2048x3 .f32) (harg3 : arg3.IsWhole) (arg4 : Memref sig .tc .vmem S512x1 .f32) (harg4 : arg4.IsWhole) (arg5 : Memref sig .tc .vmem S512x1 .f32) (harg5 : arg5.IsWhole)
    (hc0 : condReset i) (hc1 : ¬condLast i)
    (x0 : Vec F S512x3 .f32) (x1 : Vec F S2048x3 .f32) (xi : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k1_pay2 x0 x1 k1_pay1)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (cover2 _ _)]
  rw [View.canon_cons_unit_zero hz00]
  simp only [View.readAt_eq_ld, harg2.read_unread, harg3.read_unread, harg5.read_unread, View.ld_unit_zero (S := S512x3) hz00, View.ld_unit_zero (S := S2048x3) hz00, View.ld_unit_zero (S := S512x1) hz00]
  rw [View.readCov_unit_zero (S := S512x1) arg5.view hz00]

set_option maxHeartbeats 1000000 in
/-- CASE B, a plain step: the scratch `xs` ends at the step from `xs`; the output block is not touched. -/
theorem runB (c : Dev nD) (i : grid1.Coords) (arg2 : Memref sig .tc .vmem S512x3 .f32) (harg2 : arg2.IsWhole) (arg3 : Memref sig .tc .vmem S2048x3 .f32) (harg3 : arg3.IsWhole) (arg4 : Memref sig .tc .vmem S512x1 .f32) (harg4 : arg4.IsWhole) (arg5 : Memref sig .tc .vmem S512x1 .f32) (harg5 : arg5.IsWhole)
    (hc0 : ¬condReset i) (hc1 : ¬condLast i)
    (x0 : Vec F S512x3 .f32) (x1 : Vec F S2048x3 .f32) (xi : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k1_pay2 x0 x1 xs)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (cover1 _)]
  rw [View.canon_unit_zero hz00]
  simp only [View.readAt_eq_ld, harg2.read_unread, harg3.read_unread, harg5.read_unread, View.ld_unit_zero (S := S512x3) hz00, View.ld_unit_zero (S := S2048x3) hz00, View.ld_unit_zero (S := S512x1) hz00]

set_option maxHeartbeats 1000000 in
/-- CASE C, the last column block: the scratch ends at the step from `xs`, and the output block at that same value. -/
theorem runC (c : Dev nD) (i : grid1.Coords) (arg2 : Memref sig .tc .vmem S512x3 .f32) (harg2 : arg2.IsWhole) (arg3 : Memref sig .tc .vmem S2048x3 .f32) (harg3 : arg3.IsWhole) (arg4 : Memref sig .tc .vmem S512x1 .f32) (harg4 : arg4.IsWhole) (arg5 : Memref sig .tc .vmem S512x1 .f32) (harg5 : arg5.IsWhole)
    (hc0 : ¬condReset i) (hc1 : condLast i)
    (x0 : Vec F S512x3 .f32) (x1 : Vec F S2048x3 .f32) (xi : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (cover1 _)]
    rw [View.canon_unit_zero hz00]
    simp only [View.readAt_eq_ld, harg2.read_unread, harg3.read_unread, harg5.read_unread, View.ld_unit_zero (S := S512x3) hz00, View.ld_unit_zero (S := S2048x3) hz00, View.ld_unit_zero (S := S512x1) hz00]
    exact View.readCov_unit_zero (S := S512x1) arg5.view hz00 _ _
  iexists _; isplitr
  swap; · iexact HS
  ipureintro
  sl_unfold_words
  rw [View.read_writes_eq_canon _ _ _ (cover1 _)]
  rw [View.canon_unit_zero hz00]
  simp only [View.readAt_eq_ld, harg2.read_unread, harg3.read_unread, harg5.read_unread, View.ld_unit_zero (S := S512x3) hz00, View.ld_unit_zero (S := S2048x3) hz00, View.ld_unit_zero (S := S512x1) hz00]

end Cert.KernelIdeal.Reg1

end
-- ==== Proof.KIdealR1Body.lean ====
/-
  Pallas_call 1 of `KernelIdeal` as a pipeline: what its buffers hold after each grid point, and the proof that the body
  keeps it so.

  The grid's 64 points run row block by row block, four column blocks each. After point `n` the scratch holds
  `scAt n`: at the first column block of a row block the step from the splat of `+inf`, afterwards the step from
  what the point before left — a running minimum over the column blocks seen so far in this row block. The output
  window's staging buffer holds that same value at the last column block, which is the only point where it is written
  back; elsewhere it is idle. The two input windows' staging buffers hold their arrays' blocks at every point, fetched
  there or not (the row block's window is fetched once per four points). The region's invariant carries the scratch
  at `scAt (n - 1)` from the second point on, the other scoped buffers at anything, and the generator register.
  Everything is stated at the contents `V` the arrays hold when the region is entered.
-/
import proofs.«123189_j2370821948077_1_alg».proof.Proof.KIdealR1Run

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point: where it is not fetched its block index has
    not moved since the point before. -/
theorem beforeIn0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column-block window's likewise (it is fetched at every point). -/
theorem beforeIn1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The running minimum, point by point -/

/-- What the scratch holds after point `n`: the step from `+inf` at the first column block of a row block, from
    what the point before left otherwise. -/
def scAt (c : Dev nD) : (n : ℕ) → n < cfg1.N → Vec F S512x1 .f32
  | 0, hn => k1_pay2 (iblk V c 0 ⟨0, hn⟩) (iblk V c 1 ⟨0, hn⟩) k1_pay1
  | n + 1, hn => k1_pay2 (iblk V c 0 ⟨n + 1, hn⟩) (iblk V c 1 ⟨n + 1, hn⟩)
      (if (n + 1) % 4 = 0 then k1_pay1 else scAt c n (Nat.lt_of_succ_lt hn))

theorem scAt_reset (c : Dev nD) (t : Fin cfg1.N) (h0 : t.val % 4 = 0) :
    scAt V c t.val t.isLt = k1_pay2 (iblk V c 0 t) (iblk V c 1 t) k1_pay1 := by
  obtain ⟨n, hn⟩ := t
  cases n with
  | zero => rfl
  | succ n => exact congrArg (k1_pay2 _ _) (if_pos h0)

theorem scAt_step (c : Dev nD) (t : Fin cfg1.N) (h0 : ¬t.val % 4 = 0) :
    scAt V c t.val t.isLt = k1_pay2 (iblk V c 0 t) (iblk V c 1 t) (scAt V c (t.val - 1) (Nat.lt_of_le_of_lt (Nat.sub_le _ _) t.isLt)) := by
  obtain ⟨n, hn⟩ := t
  cases n with
  | zero => exact absurd (Nat.zero_mod _) h0
  | succ n => exact congrArg (k1_pay2 _ _) (if_neg h0)

/-! ## The invariant -/

/-- The scratch the body carries between points, as a whole-buffer memref. -/
abbrev scM : Memref sig .tc .vmem S512x1 .f32 := Memref.whole cc1_scratch0
/-- The core's other scoped buffers that no window of this call stages: carried unopened. -/
abbrev others (c : Dev nD) : sProp 𝕄 :=
  Pipeline.scopedRestBut (Ix := Unit) (Name := ℕ) (U := UR sig nD τ) (Lvl := ℕ) (Val := Elt F) spec1 c [cc1_scratch0]

/-- The class's invariant with the carried scratch split off. -/
theorem PhiA_eq (c : Dev nD) :
    (Pipeline.ΦA spec1 c : sProp 𝕄) = iprop(((∃ d, owns (c : Thread nD τ) scM fullShare d) ∗ others c) ∗ (∃ r, prngReg c r)) := by
  unfold Pipeline.ΦA
  rw [Pipeline.scopedRest_split_of_list spec1 c [cc1_scratch0] (by decide) (by decide)]
  simp only [scM, owns_whole]
  rfl

/-- Before point `n`: at the very first point the class's invariant (the scratch at anything); afterwards the scratch
    at what point `n - 1` left, the other scoped buffers and the generator register at anything. -/
def PhiS (c : Dev nD) : (n : ℕ) → n ≤ cfg1.N → sProp 𝕄
  | 0, _ => Pipeline.ΦA spec1 c
  | n + 1, hn => iprop((owns (c : Thread nD τ) scM fullShare (scAt V c n hn) ∗ others c) ∗ (∃ r, prngReg c r))

theorem PhiS_succ (c : Dev nD) (n : ℕ) (hn : n < cfg1.N) :
    PhiS V c (n + 1) hn = iprop((owns (c : Thread nD τ) scM fullShare (scAt V c n hn) ∗ others c) ∗ (∃ r, prngReg c r)) := rfl

theorem PhiS_pos (c : Dev nD) (n : ℕ) (h : n ≤ cfg1.N) (hz : n ≠ 0) :
    PhiS V c n h = iprop((owns (c : Thread nD τ) scM fullShare (scAt V c (n - 1) (by omega)) ∗ others c) ∗ (∃ r, prngReg c r)) := by
  cases n with
  | zero => exact absurd rfl hz
  | succ n => rfl

/-- At any point the invariant yields the scratch at SOME contents: all a reset point needs. -/
theorem PhiS_any (c : Dev nD) (n : ℕ) (h : n ≤ cfg1.N) :
    PhiS V c n h ⊢ iprop(((∃ d, owns (c : Thread nD τ) scM fullShare d) ∗ others c) ∗ (∃ r, prngReg c r)) := by
  cases n with
  | zero => rw [show PhiS V c 0 h = Pipeline.ΦA spec1 c from rfl, PhiA_eq]
  | succ n =>
    rw [PhiS_succ]
    iintro ⟨⟨HS, Hoth⟩, Hg⟩
    isplitl [HS Hoth]
    · isplitl [HS]
      · iexists _; iexact HS
      iexact Hoth
    iexact Hg

/-! ## The proof data -/

/-- The pipeline's proof data on core `c`: the arrays as the region finds them; after the body each input's buffer at
    its block and the output's at the running minimum; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => scAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = scAt V c t.val t.isLt := by dsimp only [dat]

theorem before0 (c : Dev nD) (t : Fin cfg1.N) (d) : (dat V c).before 0 t d = iblk V c 0 t :=
  beforeIn0_of V (dat V c) (A_eq V c 0) (after0 V c) t d
theorem before1 (c : Dev nD) (t : Fin cfg1.N) (d) : (dat V c).before 1 t d = iblk V c 1 t :=
  beforeIn1_of V (dat V c) (A_eq V c 1) (after1 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The point's place in its row block says which of the three runs applies; the inputs'
    buffers hold their blocks; the invariant hands over the scratch (at anything for a reset, at what the point before
    left otherwise) and takes it back at this point's running minimum; where the output is idle its buffer goes back
    as it came. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st1_0 t) fullShare ((dat V c).after 0 t) from by
    unfold Dat.leavesExact; rw [liveIn0 t], after0]
  rw [show (dat V c).leavesExact 1 t = owns (c : Thread nD τ) (st1_1 t) fullShare ((dat V c).after 1 t) from by
    unfold Dat.leavesExact; rw [liveIn1 t], after1]
  have hN : t.val < 64 := lt_of_lt_of_eq t.isLt (show cfg1.N = 64 from N_1)
  by_cases h1 : t.val % 4 = 3
  · have h0 : ¬t.val % 4 = 0 := by omega
    have hz : t.val ≠ 0 := by omega
    rw [show (dat V c).leavesExact 2 t = owns (c : Thread nD τ) (st1_2 t) fullShare ((dat V c).after 2 t) from by
      unfold Dat.leavesExact; rw [liveOut t ((hcondLast t).mpr h1)], after2]
    rw [scAt_step V c t h0, PhiS_castSucc V c t, PhiS_pos V c _ _ hz]
    iintro ⟨⟨⟨HS, Hoth⟩, Hg⟩, Ho, ⟨%d0, H0⟩, ⟨%d1, H1⟩, ⟨%d2, H2⟩⟩
    iapply (runC c (grid1.coords t) _ _ _ _ _ _ _ _ (fun h => h0 ((hcondReset t).mp h)) ((hcondLast t).mpr h1) (iblk V c 0 t) (iblk V c 1 t) _ _ Set.univ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat V c) 2 t (idleOut t (fun h => h1 ((hcondLast t).mp h))) (noFlushOut t (fun h => h1 ((hcondLast t).mp h)))]
    by_cases h0 : t.val % 4 = 0
    · rw [scAt_reset V c t h0, PhiS_castSucc V c t]
      iintro ⟨HΦ, Ho, ⟨%d0, H0⟩, ⟨%d1, H1⟩, ⟨%d2, H2⟩⟩
      ihave HΦ' := (PhiS_any V c t.val (Nat.le_of_lt t.isLt)) $$ HΦ
      icases HΦ' with ⟨⟨⟨%ds, HS⟩, Hoth⟩, Hg⟩
      iapply (runA c (grid1.coords t) _ _ _ _ _ _ _ _ ((hcondReset t).mpr h0) (fun h => h1 ((hcondLast t).mp h)) (iblk V c 0 t) (iblk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · have hz : t.val ≠ 0 := fun e => h0 (by rw [e])
      rw [scAt_step V c t h0, PhiS_castSucc V c t, PhiS_pos V c _ _ hz]
      iintro ⟨⟨⟨HS, Hoth⟩, Hg⟩, Ho, ⟨%d0, H0⟩, ⟨%d1, H1⟩, ⟨%d2, H2⟩⟩
      iapply (runB c (grid1.coords t) _ _ _ _ _ _ _ _ (fun h => h0 ((hcondReset t).mp h)) (fun h => h1 ((hcondLast t).mp h)) (iblk V c 0 t) (iblk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the region's entry hands over is the invariant before the first point. -/
theorem Phi_in (c : Dev nD) : Pipeline.ΦA spec1 c ⊢ (dat V c).Φ 0 := by
  rw [show (dat V c).Φ 0 = Pipeline.ΦA spec1 c from rfl]

/-- After the last point the invariant gives the class's back: the scratch's named contents are forgotten. -/
theorem Phi_out (c : Dev nD) : (dat V c).Φ (Fin.last cfg1.N) ⊢ Pipeline.ΦA spec1 c := by
  have hN : cfg1.N = 64 := N_1
  rw [show (dat V c).Φ (Fin.last cfg1.N) = PhiS V c cfg1.N (Nat.le_refl _) from rfl, PhiA_eq]
  exact PhiS_any V c cfg1.N (Nat.le_refl _)

end

end Cert.KernelIdeal.Reg1

end
-- ==== Proof.KIdealWhole.lean ====
/-
  The whole of `KernelIdeal`'s @main, from the launch to the return: pallas_call 0, one reshape, pallas_call 1, and the
  ten host operations that average the two vectors of row minima and add the averages.

  The contents of the core's unscoped buffers are followed through the four items: `bufs0` at launch; `bufs1` after
  pallas_call 0 (its output array at what the pipeline's write-backs leave, every other buffer as before); `bufs2`
  after the reshape; `bufs3` after pallas_call 1; `bufs4` after the host tail. Each pallas_call's proof data are
  stated at the contents it is entered from. Between items the thread holds every unscoped buffer at those contents,
  the generator register at some state, and owes nothing. The run's post reads every unscoped buffer off `bufs4`:
  the arguments, which no item writes, read back as launched, and the result is read from the same post.
-/
import proofs.«123189_j2370821948077_1_alg».proof.Proof.KIdealR0Body
import proofs.«123189_j2370821948077_1_alg».proof.Proof.KIdealR1Body
import proofs.«123189_j2370821948077_1_alg».proof.Proof.Gen.KernelIdeal.Regions
import Idealize.ShloMosaic.Lib.Pipeline.RegionsLoop

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- At launch. -/
abbrev bufs0 : Dev nD → Valuation τ sig (Elt F) := fun c b => m (c, b)
/-- The same read at the TensorCore's references: what pallas_call 0 is entered from. -/
abbrev ent0 : (c : Dev nD) → (b : Ref sig .tc) → Buf (Elt F) ((c : Thread nD τ).loc b) := fun c b => bufs0 m c b
/-- After pallas_call 0: its arrays at what the pipeline leaves, every other buffer as entered. -/
def bufs1 (c : Dev nD) : Valuation τ sig (Elt F) :=
  Pipeline.withArrays spec0 c (bufs0 m c) fun w => (Reg0.dat (ent0 m) c).arrAt w cfg0.N
theorem bufs1_arr (c : Dev nD) (w : Fin cfg0.W) :
    bufs1 m c (Proc.devRef .tc (Pipeline.arrRef spec0 w)) = (Reg0.dat (ent0 m) c).arrAt w cfg0.N := by
  unfold bufs1; exact Pipeline.withArrays_arr spec0 launch0.win.arr_inj c _ _ w
theorem bufs1_of_ne (c : Dev nD) (b : Ref sig .tc) (hb : ∀ w, Pipeline.arrRef spec0 w ≠ b) :
    bufs1 m c (Proc.devRef .tc b) = bufs0 m c (Proc.devRef .tc b) := by
  unfold bufs1; exact Pipeline.withArrays_of_ne spec0 c _ _ b hb
abbrev ext0 : (c : Dev nD) → (b : Ref sig .tc) → Buf (Elt F) ((c : Thread nD τ).loc b) := fun c b => bufs1 m c b
theorem hF0 (c : Dev nD) (w : Fin cfg0.W) : (Reg0.dat (ent0 m) c).arrAt w cfg0.N = ext0 m c (Pipeline.arrRef spec0 w) :=
  (bufs1_arr m c w).symm
theorem hrest0 (c : Dev nD) : ∀ b, b ∉ Finset.univ.image (Pipeline.arrRef spec0) → ext0 m c b = ent0 m c b :=
  fun b hb => bufs1_of_ne m c b fun w e => hb (Finset.mem_image.mpr ⟨w, Finset.mem_univ _, e⟩)

/-- After the reshape between the two calls. -/
abbrev bufs2 : Dev nD → Valuation τ sig (Elt F) := fun c => StableHlo.after hostOps1 (bufs1 m c)
abbrev ent1 : (c : Dev nD) → (b : Ref sig .tc) → Buf (Elt F) ((c : Thread nD τ).loc b) := fun c b => bufs2 m c b
/-- After pallas_call 1. -/
def bufs3 (c : Dev nD) : Valuation τ sig (Elt F) :=
  Pipeline.withArrays spec1 c (bufs2 m c) fun w => (Reg1.dat (ent1 m) c).arrAt w cfg1.N
theorem bufs3_arr (c : Dev nD) (w : Fin cfg1.W) :
    bufs3 m c (Proc.devRef .tc (Pipeline.arrRef spec1 w)) = (Reg1.dat (ent1 m) c).arrAt w cfg1.N := by
  unfold bufs3; exact Pipeline.withArrays_arr spec1 launch1.win.arr_inj c _ _ w
theorem bufs3_of_ne (c : Dev nD) (b : Ref sig .tc) (hb : ∀ w, Pipeline.arrRef spec1 w ≠ b) :
    bufs3 m c (Proc.devRef .tc b) = bufs2 m c (Proc.devRef .tc b) := by
  unfold bufs3; exact Pipeline.withArrays_of_ne spec1 c _ _ b hb
abbrev ext1 : (c : Dev nD) → (b : Ref sig .tc) → Buf (Elt F) ((c : Thread nD τ).loc b) := fun c b => bufs3 m c b
theorem hF1 (c : Dev nD) (w : Fin cfg1.W) : (Reg1.dat (ent1 m) c).arrAt w cfg1.N = ext1 m c (Pipeline.arrRef spec1 w) :=
  (bufs3_arr m c w).symm
theorem hrest1 (c : Dev nD) : ∀ b, b ∉ Finset.univ.image (Pipeline.arrRef spec1) → ext1 m c b = ent1 m c b :=
  fun b hb => bufs3_of_ne m c b fun w e => hb (Finset.mem_image.mpr ⟨w, Finset.mem_univ _, e⟩)

/-- After the host tail: what the program returns with. -/
abbrev bufs4 : Dev nD → Valuation τ sig (Elt F) := fun c => StableHlo.after hostOps2 (bufs3 m c)

/-! ## No item writes an argument -/

/-- The first argument is pallas_call 0's row-block array and pallas_call 1's column-block array: an input of both,
    so each leaves it as entered; no host operation writes it. -/
theorem bufs4_main_arg0 (c : Dev nD) : bufs4 m c (Proc.devRef .tc main_arg0) = m ((c : Thread nD τ).loc main_arg0) :=
  calc bufs4 m c (Proc.devRef .tc main_arg0)
    _ = bufs3 m c (Proc.devRef .tc main_arg0) := StableHlo.after_of_writes_sub hostOps2 _ hostOps2_writes (by decide)
    _ = bufs2 m c (Proc.devRef .tc main_arg0) := (bufs3_arr m c 1).trans (((Reg1.dat (ent1 m) c).arrAt_in 1 rfl _).trans (Reg1.A_eq (ent1 m) c 1))
    _ = bufs1 m c (Proc.devRef .tc main_arg0) := StableHlo.after_of_writes_sub hostOps1 _ hostOps1_writes (by decide)
    _ = bufs0 m c (Proc.devRef .tc main_arg0) := (bufs1_arr m c 0).trans (((Reg0.dat (ent0 m) c).arrAt_in 0 rfl _).trans (Reg0.A_eq (ent0 m) c 0))
    _ = m ((c : Thread nD τ).loc main_arg0) := rfl
/-- The second argument likewise, with the two roles exchanged. -/
theorem bufs4_main_arg1 (c : Dev nD) : bufs4 m c (Proc.devRef .tc main_arg1) = m ((c : Thread nD τ).loc main_arg1) :=
  calc bufs4 m c (Proc.devRef .tc main_arg1)
    _ = bufs3 m c (Proc.devRef .tc main_arg1) := StableHlo.after_of_writes_sub hostOps2 _ hostOps2_writes (by decide)
    _ = bufs2 m c (Proc.devRef .tc main_arg1) := (bufs3_arr m c 0).trans (((Reg1.dat (ent1 m) c).arrAt_in 0 rfl _).trans (Reg1.A_eq (ent1 m) c 0))
    _ = bufs1 m c (Proc.devRef .tc main_arg1) := StableHlo.after_of_writes_sub hostOps1 _ hostOps1_writes (by decide)
    _ = bufs0 m c (Proc.devRef .tc main_arg1) := (bufs1_arr m c 1).trans (((Reg0.dat (ent0 m) c).arrAt_in 1 rfl _).trans (Reg0.A_eq (ent0 m) c 1))
    _ = m ((c : Thread nD τ).loc main_arg1) := rfl

/-! ## The proof data family and the thread state -/

/-- Every pipeline's proof data, each at its region's entry contents: a literal match, so that the library's pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => Reg0.dat (ent0 m) c
  | ⟨1, _⟩ => fun c => Reg1.dat (ent1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `bufs4`, the generator register at some state. -/
abbrev Tₙ (c : Dev nD) : sProp 𝕄 := iprop(StableHlo.held (c : Thread nD τ) (Pipeline.ucRefs τ sig) (bufs4 m c) ∗ ∃ r, prngReg c r)

/-! ## The two pallas_calls as segments -/

-- the library's lemmas are stated over the pinned configuration; unifying with it unfolds plain definitions in a metavariable's type
set_option backward.isDefEq.respectTransparency.types false in
/-- Pallas_call 0 as a segment: entered with every unscoped buffer at `bufs0`, left with them at `bufs1`. Its arrays
    are split out of the unscoped buffers at entry and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (ent0 m) c).loose
  hwaits := Pipeline.hwaits_of_owed_zero _ _ _ _ L lv 0 fun _ _ => rfl
  pre c := iprop(StableHlo.held (c : Thread nD τ) (Pipeline.ucRefs τ sig) (bufs0 m c) ∗ R c)
  post c := iprop(StableHlo.held (c : Thread nD τ) (Pipeline.ucRefs τ sig) (bufs1 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest (Ix := Unit) (Name := ℕ) (U := UR sig nD τ) (Lvl := ℕ) (Val := Elt F) spec0 c ∗ ∃ r, prngReg c r)
        ⊢ (pdats m 0 c).Φ 0 := by
      have h' := Reg0.Phi_in (ent0 m) c
      unfold Pipeline.ΦA at h'
      exact h'
    iintro ⟨Hp, -, Hr⟩
    iapply h
    isplitl [Hr]; · iexact Hr
    iexact Hp
  hout c := by
    have h : (pdats m 0 c).Φ (Fin.last _)
        ⊢ iprop(Pipeline.scopedRest (Ix := Unit) (Name := ℕ) (U := UR sig nD τ) (Lvl := ℕ) (Val := Elt F) spec0 c ∗ ∃ r, prngReg c r) := by
      have h' := Reg0.Phi_out (ent0 m) c
      unfold Pipeline.ΦA at h'
      exact h'
    rw [Pipeline.ownSems0_none]
    iintro Hinv
    ihave H := h $$ Hinv
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying with it unfolds plain definitions in a metavariable's type
set_option backward.isDefEq.respectTransparency.types false in
/-- Pallas_call 1 as a segment: entered with every unscoped buffer at `bufs2`, left with them at `bufs3`. Its arrays
    are split out of the unscoped buffers at entry and put back at the exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (ent1 m) c).loose
  hwaits := Pipeline.hwaits_of_owed_zero _ _ _ _ L lv 1 fun _ _ => rfl
  pre c := iprop(StableHlo.held (c : Thread nD τ) (Pipeline.ucRefs τ sig) (bufs2 m c) ∗ R c)
  post c := iprop(StableHlo.held (c : Thread nD τ) (Pipeline.ucRefs τ sig) (bufs3 m c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest (Ix := Unit) (Name := ℕ) (U := UR sig nD τ) (Lvl := ℕ) (Val := Elt F) spec1 c ∗ ∃ r, prngReg c r)
        ⊢ (pdats m 1 c).Φ 0 := by
      have h' := Reg1.Phi_in (ent1 m) c
      unfold Pipeline.ΦA at h'
      exact h'
    iintro ⟨Hp, -, Hr⟩
    iapply h
    isplitl [Hr]; · iexact Hr
    iexact Hp
  hout c := by
    have h : (pdats m 1 c).Φ (Fin.last _)
        ⊢ iprop(Pipeline.scopedRest (Ix := Unit) (Name := ℕ) (U := UR sig nD τ) (Lvl := ℕ) (Val := Elt F) spec1 c ∗ ∃ r, prngReg c r) := by
      have h' := Reg1.Phi_out (ent1 m) c
      unfold Pipeline.ΦA at h'
      exact h'
    rw [Pipeline.ownSems0_none]
    iintro Hinv
    ihave H := h $$ Hinv
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its four items, and the run -/

abbrev items : List (Pipeline.Seg (pcfgs (F := F)) adm (pdats m) () defs₀ 𝒱₀ L lv) :=
  [ .region (reg0 m),
    .host (hseg hostOps1 hostOps1_sub hostOps1_fresh (bufs1 m)),
    .region (reg1 m),
    .host (hseg hostOps2 hostOps2_sub hostOps2_fresh (bufs3 m)) ]

theorem main_run (c : Dev nD) : main (F := F) c = Pipeline.Seg.run (items m) :=
  main_segs adm (pdats m) () 𝒱₀ L lv (hseg hostOps1 hostOps1_sub hostOps1_fresh (bufs1 m)) (hseg hostOps2 hostOps2_sub hostOps2_fresh (bufs3 m))
    (reg0 m) (reg1 m) rfl rfl c

set_option backward.isDefEq.respectTransparency.types false in
/-- THE RUN. From any memory with zero counters every weakly fair execution of @main terminates, nothing faulting, and the
    final memory holds every unscoped buffer of each core at `bufs4`. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = bufs4 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bufs0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (bufs4 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (bufs0 m c)
        from Pipeline.unscopedBufs_held c (bufs0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bufs4 m c b)
    (hfin := fun c s' => by
      iintro ⟨⟨Hh, -⟩, HSI⟩
      unfold StableHlo.held
      imodintro
      iapply (pointsTo_read_all (Pipeline.ucRefs τ sig) (fun b => (((c : Thread nD τ)).1, b)) (bufs4 m c) s')
      isplitl [Hh] <;> iassumption)
    (hQ := fun _ h => h)

/-- THE FRAME: the run's post read at the two arguments. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (bufs4_main_arg0 m c),
     (h c _ (mem_uc main_arg1 (by decide))).trans (bufs4_main_arg1 m c)⟩) (run_all m ρ)

end Cert.KernelIdeal.Whole

end
-- ==== Proof.KIdealPay.lean ====
/-
  The arithmetic of the row-minimum kernel's body, read at one entry.

  One step of the kernel holds a block `x` of 512 points and a block `y` of 2048 points of 3-space and a column `s` of
  512 running minima. It forms the squared norms of the points of `x` (the sums along the rows of `x * x`, laid as a
  column) and of `y` (laid as a row), the 512 × 2048 matrix of inner products as the product of `x` with the transpose
  of `y` into a zero accumulator, and from these the tile of distances
  `sqrt (max ((|x_p|² + |y_q|²) - 2 * <x_p, y_q>) 0)`; it takes the least entry of each row of the tile, starting from the
  word `+inf`, and stores the smaller of that and the running minimum. The first step of a row of blocks stores the
  word `+inf` everywhere instead.

  Here each of those operations is read at an index: a sum along a row of an n × 3 array is the sum over its three
  columns; a vector laid as a column or as a row, and a column or a row spread over a matrix, read the vector's entry; an
  entry of the product with a transpose is the inner product of two rows; the least entry of a row is the fold of
  `min` over its columns. Put together, entry `(p, 0)` of what a step stores is `min (s p) (minOver x y p)`, the
  specification's least distance from point `p` of `x` to a point of `y`, with the words `2.0`, `0.0` and `+inf` kept as
  words on both sides. The same is said for both calls of the kernel.
-/
import proofs.«123189_j2370821948077_1_alg».proof.Proof.Spec
import proofs.«123189_j2370821948077_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.KernelIdeal.Pay

open Cert.KernelIdeal Cert.KernelIdeal.Gen Idealize.ShloMosaic Idealize.ShloMosaic.ValueIdx

/-- The sum along a row of an n × 3 array: at row p it is the sum over the three columns. -/
theorem rowSum_apply {n : Nat} (v : FVec Ideal ⟨2, ![n, 3]⟩ .f32)
    (h : (⟨2, ![n, 3]⟩ : Shape).Reduces [1] ⟨1, ![n]⟩) (p : Fin n) :
    multiReduction (F := Ideal) .add [1] ⟨1, ![n]⟩ v 0x00000000#32 h (.inl rfl) rfl (ix1 p) = ∑ k : Fin 3, v (ix2 p k) := by
  refine (Ideal.multiReduction_add_single v 0x00000000#32 h (.inl rfl) rfl (ix1 p)).trans ?_
  refine Finset.sum_congr rfl fun k _ => congrArg v (funext fun a => Fin.ext ?_)
  match a with
  | ⟨0, _⟩ => rfl
  | ⟨1, _⟩ => rfl

/-- A column vector made of a vector: entry (p, 0) of the n × 1 array is entry p of the vector. -/
theorem shapeCast_a_a1_apply {α : Type} {n : Nat} (x : (⟨1, ![n]⟩ : Shape).Idx → α)
    (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column spread over m columns: entry (p, q) of the n × m array is entry (p, 0) of the column. -/
theorem broadcastTo_a1_ab_apply {α : Type} {n m : Nat} (v : (⟨2, ![n, 1]⟩ : Shape).Idx → α)
    (h : (⟨2, ![n, 1]⟩ : Shape).Broadcasts ⟨2, ![n, m]⟩) (p : Fin n) (q : Fin m) :
    broadcastTo ⟨2, ![n, m]⟩ v h (ix2 p q) = v (ix2 p (0 : Fin 1)) := by
  refine broadcastTo_apply v h (ix2 p q) (ix2 p (0 : Fin 1)) fun ax => ?_
  match ax with
  | ⟨0, _⟩ =>
    show p.val = if n = 1 then 0 else p.val
    split
    · have := p.isLt; omega
    · rfl
  | ⟨1, _⟩ => rfl

/-! The contraction of the 512 × 3 block with the 3 × 2048 block: the operand indices of the product at (p, q), axis by axis. -/

theorem lhs_dot_0 (i : S512x2048.Idx) (q : dot_S512x3_S3x2048_S512x2048_1_0_0_1_n_n.contr.Idx) :
    (dot_S512x3_S3x2048_S512x2048_1_0_0_1_n_n.lhsIdx i q 0).val = (i 0).val := by
  unfold DotDims.lhsIdx
  rw [dif_neg (show ¬(0 : Fin S512x3.rank) ∈ dot_S512x3_S3x2048_S512x2048_1_0_0_1_n_n.lhsBatch by decide), dif_pos (show (0 : Fin S512x3.rank) ∈ dot_S512x3_S3x2048_S512x2048_1_0_0_1_n_n.lhsNonContracting by decide)]
  rfl
theorem lhs_dot_1 (i : S512x2048.Idx) (q : dot_S512x3_S3x2048_S512x2048_1_0_0_1_n_n.contr.Idx) :
    (dot_S512x3_S3x2048_S512x2048_1_0_0_1_n_n.lhsIdx i q 1).val = (q ⟨0, by decide⟩).val :=
  dot_S512x3_S3x2048_S512x2048_1_0_0_1_n_n.lhsIdx_val_of_single rfl i q
theorem rhs_dot_0 (i : S512x2048.Idx) (q : dot_S512x3_S3x2048_S512x2048_1_0_0_1_n_n.contr.Idx) :
    (dot_S512x3_S3x2048_S512x2048_1_0_0_1_n_n.rhsIdx i q 0).val = (q ⟨0, by decide⟩).val :=
  dot_S512x3_S3x2048_S512x2048_1_0_0_1_n_n.rhsIdx_val_of_single rfl i q
theorem rhs_dot_1 (i : S512x2048.Idx) (q : dot_S512x3_S3x2048_S512x2048_1_0_0_1_n_n.contr.Idx) :
    (dot_S512x3_S3x2048_S512x2048_1_0_0_1_n_n.rhsIdx i q 1).val = (i 1).val := by
  unfold DotDims.rhsIdx
  rw [dif_neg (show ¬(1 : Fin S3x2048.rank) ∈ dot_S512x3_S3x2048_S512x2048_1_0_0_1_n_n.rhsBatch by decide), dif_pos (show (1 : Fin S3x2048.rank) ∈ dot_S512x3_S3x2048_S512x2048_1_0_0_1_n_n.rhsNonContracting by decide)]
  rfl

/-- The product of a 512 × 3 block with a 3 × 2048 block into the zero accumulator: entry (p, q) is the sum over the
    three shared coordinates of the products. -/
theorem matmul_pq_apply (l : FVec Ideal S512x3 .f32) (r : FVec Ideal S3x2048 .f32) (p : Fin 512) (q : Fin 2048) :
    matmul dot_S512x3_S3x2048_S512x2048_1_0_0_1_n_n (some .fp32) l r (constant (F := Ideal) S512x2048 .f32 0x00000000#32) (ix2 p q)
      = ∑ k : Fin 3, l (ix2 p k) * r (ix2 k q) := by
  simp only [matmul]
  rw [Ideal.matmul_constant_zero_apply, ← Equiv.sum_comp (ValueIdx.contrEquiv1 dot_S512x3_S3x2048_S512x2048_1_0_0_1_n_n 3 rfl rfl).symm]
  refine Finset.sum_congr rfl fun k _ => ?_
  have hk := ValueIdx.contrEquiv1_symm_val dot_S512x3_S3x2048_S512x2048_1_0_0_1_n_n 3 rfl rfl k
  have el : dot_S512x3_S3x2048_S512x2048_1_0_0_1_n_n.lhsIdx (ix2 p q) ((ValueIdx.contrEquiv1 dot_S512x3_S3x2048_S512x2048_1_0_0_1_n_n 3 rfl rfl).symm k) = ix2 p k := funext fun a => Fin.ext (by
    match a with
    | ⟨0, _⟩ => exact lhs_dot_0 _ _
    | ⟨1, _⟩ => exact (lhs_dot_1 _ _).trans hk)
  have er : dot_S512x3_S3x2048_S512x2048_1_0_0_1_n_n.rhsIdx (ix2 p q) ((ValueIdx.contrEquiv1 dot_S512x3_S3x2048_S512x2048_1_0_0_1_n_n 3 rfl rfl).symm k) = ix2 k q := funext fun a => Fin.ext (by
    match a with
    | ⟨0, _⟩ => exact (rhs_dot_0 _ _).trans hk
    | ⟨1, _⟩ => exact rhs_dot_1 _ _)
  rw [el, er]

/-- The least entry along a row of an n × m array, from the word +inf: at row p it is the fold of min over the m columns. -/
theorem rowMin_apply {n m : Nat} (v : FVec Ideal ⟨2, ![n, m]⟩ .f32)
    (h : (⟨2, ![n, m]⟩ : Shape).Reduces [1] ⟨1, ![n]⟩) (p : Fin n) :
    multiReduction (F := Ideal) .minimumf [1] ⟨1, ![n]⟩ v 0x7F800000#32 h (.inl rfl) rfl (ix1 p)
      = (Finset.univ : Finset (Fin m)).fold min Cert.Spec.infW (fun q => v (ix2 p q)) := by
  refine (multiReduction_minimumf_eq_fold v 0x7F800000#32 h (.inl rfl) rfl (ix1 p)).trans ?_
  refine (h.fold_filter_drop_single FloatOps.minimumf (FloatOps.ofBits .f32 0x7F800000#32) v (ix1 p)).trans ?_
  show (Finset.univ : Finset (Fin m)).fold min Cert.Spec.infW (v ∘ h.lift (ix1 p)) = _
  refine congrArg (Finset.fold min Cert.Spec.infW · Finset.univ) (funext fun q => congrArg v (funext fun a => Fin.ext ?_))
  match a with
  | ⟨0, _⟩ => rfl
  | ⟨1, _⟩ => rfl

/-- The same product against the transpose of a 2048 × 3 block: entry (p, q) is the inner product of row p of the first
    block with row q of the second. -/
theorem matmul_transpose_apply (l : FVec Ideal S512x3 .f32) (y : FVec Ideal S2048x3 .f32) (p : Fin 512) (q : Fin 2048) :
    matmul dot_S512x3_S3x2048_S512x2048_1_0_0_1_n_n (some .fp32) l
        (transpose S3x2048 [1, 0] y transposes_S2048x3_p1_0_S3x2048) (constant (F := Ideal) S512x2048 .f32 0x00000000#32) (ix2 p q)
      = ∑ k : Fin 3, l (ix2 p k) * y (ix2 q k) :=
  (matmul_pq_apply l _ p q).trans
    (Finset.sum_congr rfl fun k _ => congrArg (l (ix2 p k) * ·) (transpose_ix2_apply y transposes_S2048x3_p1_0_S3x2048 k q))

/-- The root read at an index is the root of the entry. -/
theorem sqrt_apply {s : Shape} {φ : FTy} (a : FVec Ideal s φ) (i : s.Idx) : sqrt a i = Ideal.sqrt (a i) := rfl

/-- One entry of the 512 × 2048 tile of distances: the two squared norms spread along rows and columns, minus twice the
    product of the first block with the transpose of the second, clamped at zero, under the root, is the distance from
    point p of the first block to point q of the second. -/
theorem tile_apply (x : FVec Ideal S512x3 .f32) (y : FVec Ideal S2048x3 .f32) (p : Fin 512) (q : Fin 2048) :
    sqrt (maximumf
      (subf
        (addf
          (broadcastTo S512x2048
            (shapeCast S512x1 (multiReduction (F := Ideal) .add [1] S512 (mulf x x) 0x00000000#32 reduces_S512x3_S512 (.inl rfl) rfl)
              shapeCasts_S512_S512x1)
            broadcasts_S512x1_S512x2048)
          (broadcastTo S512x2048
            (shapeCast S1x2048 (multiReduction (F := Ideal) .add [1] S2048 (mulf y y) 0x00000000#32 reduces_S2048x3_S2048 (.inl rfl) rfl)
              shapeCasts_S2048_S1x2048)
            broadcasts_S1x2048_S512x2048))
        (mulf (broadcast S512x2048 (Scalar.ofBits (F := Ideal) .f32 0x40000000#32))
          (matmul dot_S512x3_S3x2048_S512x2048_1_0_0_1_n_n (some .fp32) x
            (transpose S3x2048 [1, 0] y transposes_S2048x3_p1_0_S3x2048) (constant (F := Ideal) S512x2048 .f32 0x00000000#32))))
      (broadcast S512x2048 (Scalar.ofBits (F := Ideal) .f32 0x00000000#32))) (ix2 p q)
      = Cert.Spec.distP x y p q := by
  rw [sqrt_apply, maximumf_apply, subf_apply, addf_apply, mulf_apply, broadcast_apply, broadcast_apply,
    broadcastTo_a1_ab_apply, shapeCast_a_a1_apply, rowSum_apply,
    broadcastTo_1b_ab_apply, shapeCast_a_1a_apply, rowSum_apply, matmul_transpose_apply]
  rfl

/-! ## The first call -/

/-- The first store of a row of blocks: the word `+inf` at every entry. -/
theorem k0_pay1_apply (j : S512x1.Idx) : k0_pay1 (F := Ideal) j = Cert.Spec.infW := by
  unfold k0_pay1
  rw [shapeCast_self]
  rfl

/-- What a step stores at row p: the smaller of the running minimum there and the least distance from point p of the
    first block to a point of the second. -/
theorem k0_pay2_apply (x : Vec Ideal S512x3 .f32) (y : Vec Ideal S2048x3 .f32) (s : Vec Ideal S512x1 .f32) (p : Fin 512) :
    k0_pay2 (F := Ideal) x y s (ix2 p (0 : Fin 1)) = min (s (ix2 p (0 : Fin 1))) (Cert.Spec.minOver x y p) := by
  unfold k0_pay2
  rw [shapeCast_self, minimumf_apply, shapeCast_a_a1_apply, rowMin_apply]
  refine congrArg (min (s (ix2 p (0 : Fin 1)))) ?_
  unfold Cert.Spec.minOver
  exact congrArg (Finset.fold min Cert.Spec.infW · Finset.univ) (funext fun q => tile_apply x y p q)

/-! ## The second call -/

/-- The second call's first store of a row of blocks: the word `+inf` at every entry. -/
theorem k1_pay1_apply (j : S512x1.Idx) : k1_pay1 (F := Ideal) j = Cert.Spec.infW := by
  unfold k1_pay1
  rw [shapeCast_self]
  rfl

/-- What a step of the second call stores at row p: the smaller of the running minimum there and the least distance
    from point p of the first block to a point of the second. -/
theorem k1_pay2_apply (x : Vec Ideal S512x3 .f32) (y : Vec Ideal S2048x3 .f32) (s : Vec Ideal S512x1 .f32) (p : Fin 512) :
    k1_pay2 (F := Ideal) x y s (ix2 p (0 : Fin 1)) = min (s (ix2 p (0 : Fin 1))) (Cert.Spec.minOver x y p) := by
  unfold k1_pay2
  rw [shapeCast_self, minimumf_apply, shapeCast_a_a1_apply, rowMin_apply]
  refine congrArg (min (s (ix2 p (0 : Fin 1)))) ?_
  unfold Cert.Spec.minOver
  exact congrArg (Finset.fold min Cert.Spec.infW · Finset.univ) (funext fun q => tile_apply x y p q)

end Cert.KernelIdeal.Pay

end
-- ==== Proof.SpecLemmas.lean ====
/-
  Laws of the specification, over the extended reals alone; no program is imported.

  1. The distance matrix of `(y, x)` is the transpose of that of `(x, y)`, because addition and multiplication of
     extended reals commute; hence a column minimum of the matrix of `(x, y)` is a row minimum of the matrix of `(y, x)`.
  2. A fold of `min` is characterised by its lower bounds: `c ≤ fold min a f` exactly when `c ≤ a` and `c ≤ f i` for
     every `i`. Because `min` is idempotent, the starting value may be repeated freely, so a fold over 8192 positions
     from `a` is the running minimum, from `a`, of the four folds over blocks of 2048 consecutive positions, each
     also started from `a`: both sides have the same lower bounds, every position `i` being `2048 * (i / 2048) + i % 2048`.
  3. A block of a cloud reads the cloud at the shifted position, so squared norms, inner products and distances of a
     block's points are the cloud's at the shifted positions.
  4. Together: the least distance from a point of block `a` of `x` to the whole cloud `y` is the running minimum,
     started at `+inf`, of its least distances to the four blocks of `y`.
-/
import proofs.«123189_j2370821948077_1_alg».proof.Proof.Spec
import Mathlib.Data.Finset.Fold
import Mathlib.Data.EReal.Operations
import Mathlib.Order.Basic

noncomputable section

open scoped BigOperators

namespace Cert.Spec

open Idealize.ShloMosaic Idealize.ShloMosaic.ValueIdx

/-! ## The distance matrix transposes -/

/-- The inner product is symmetric: multiplication of extended reals commutes. -/
theorem dotP_swap {n m : Nat} (x : Pts n) (y : Pts m) (p : Fin n) (q : Fin m) : dotP x y p q = dotP y x q p := by
  unfold dotP
  exact Finset.sum_congr rfl (fun k _ => mul_comm _ _)

/-- The distance matrix of `(y, x)` is the transpose of that of `(x, y)`: addition and multiplication of extended
    reals commute. -/
theorem distP_swap {n m : Nat} (x : Pts n) (y : Pts m) (p : Fin n) (q : Fin m) : distP x y p q = distP y x q p := by
  unfold distP distOf
  rw [dotP_swap x y p q, add_comm (sqP x p) (sqP y q)]

/-- So a column minimum of the matrix of `(x, y)` is a row minimum of the matrix of `(y, x)`. -/
theorem colMin_eq_minOver_swap (x y : Pts 8192) (j : Fin 8192) : colMin x y j = minOver y x j := by
  unfold colMin minOver
  congr 1
  funext i
  exact distP_swap x y i j

/-! ## A fold of `min` over four blocks -/

/-- The position `2048 * b + q` of a cloud of 8192, for a block `b` of four and an offset `q` in it. -/
abbrev pos2048 (b : Fin 4) (q : Fin 2048) : Fin 8192 :=
  ⟨2048 * b.val + q.val, by have := b.isLt; have := q.isLt; omega⟩

/-- The position `512 * a + p` of a cloud of 8192, for a block `a` of sixteen and an offset `p` in it. -/
abbrev pos512 (a : Fin 16) (p : Fin 512) : Fin 8192 :=
  ⟨512 * a.val + p.val, by have := a.isLt; have := p.isLt; omega⟩

/-- The fold of `min`, from `a`, of `f` over block `b` of 2048 consecutive positions. -/
def blockFold (a : EReal) (f : Fin 8192 → EReal) (b : Fin 4) : EReal :=
  (Finset.univ : Finset (Fin 2048)).fold min a (fun q => f (pos2048 b q))

/-- The universal property of a fold of `min` over a whole finite type: its lower bounds are the common lower bounds
    of the starting value and of every term. -/
theorem le_fold_min_univ {ι : Type} [Fintype ι] (c a : EReal) (f : ι → EReal) :
    c ≤ (Finset.univ : Finset ι).fold min a f ↔ c ≤ a ∧ ∀ i, c ≤ f i := by
  rw [Finset.le_fold_min]
  exact ⟨fun h => ⟨h.1, fun i => h.2 i (Finset.mem_univ i)⟩, fun h => ⟨h.1, fun i _ => h.2 i⟩⟩

/-- The lower bounds of a block's fold. -/
theorem le_blockFold (c a : EReal) (f : Fin 8192 → EReal) (b : Fin 4) :
    c ≤ blockFold a f b ↔ c ≤ a ∧ ∀ q : Fin 2048, c ≤ f (pos2048 b q) := by
  unfold blockFold
  exact le_fold_min_univ c a _

/-- Every position of 8192 lies in one of the four blocks: `i = 2048 * (i / 2048) + i % 2048`. -/
theorem exists_pos2048 (i : Fin 8192) : ∃ (b : Fin 4) (q : Fin 2048), i = pos2048 b q := by
  obtain ⟨i, hi⟩ := i
  refine ⟨⟨i / 2048, by omega⟩, ⟨i % 2048, by omega⟩, ?_⟩
  apply Fin.ext
  show i = 2048 * (i / 2048) + i % 2048
  omega

/-- A fold of `min` over 8192 positions, from any starting value `a`, is the running minimum over its four blocks of
    2048 consecutive positions, each block folded from the same `a`, folded in turn from `a`: `min` is idempotent,
    so both sides have the same lower bounds. -/
theorem fold_min_blocks4 (a : EReal) (f : Fin 8192 → EReal) :
    (Finset.univ : Finset (Fin 8192)).fold min a f
      = min (min (min (min a (blockFold a f 0)) (blockFold a f 1)) (blockFold a f 2)) (blockFold a f 3) := by
  apply eq_of_forall_le_iff
  intro c
  rw [le_fold_min_univ, le_min_iff, le_min_iff, le_min_iff, le_min_iff,
    le_blockFold, le_blockFold, le_blockFold, le_blockFold]
  constructor
  · rintro ⟨ha, hf⟩
    exact ⟨⟨⟨⟨ha, ha, fun q => hf _⟩, ha, fun q => hf _⟩, ha, fun q => hf _⟩, ha, fun q => hf _⟩
  · rintro ⟨⟨⟨⟨ha, -, h0⟩, -, h1⟩, -, h2⟩, -, h3⟩
    refine ⟨ha, fun i => ?_⟩
    have hall : ∀ (b : Fin 4) (q : Fin 2048), c ≤ f (pos2048 b q) := by
      intro b
      match b with
      | ⟨0, _⟩ => exact h0
      | ⟨1, _⟩ => exact h1
      | ⟨2, _⟩ => exact h2
      | ⟨3, _⟩ => exact h3
    obtain ⟨b, q, rfl⟩ := exists_pos2048 i
    exact hall b q

/-! ## Reading a block -/

/-- The squared norm of a point of a block of 2048 is the cloud's at the shifted position. -/
theorem sqP_blk2048 (y : Pts 8192) (b : Fin 4) (q : Fin 2048) : sqP (blk2048 y b) q = sqP y (pos2048 b q) := rfl

/-- The squared norm of a point of a block of 512 is the cloud's at the shifted position. -/
theorem sqP_blk512 (x : Pts 8192) (a : Fin 16) (p : Fin 512) : sqP (blk512 x a) p = sqP x (pos512 a p) := rfl

/-- The inner product with a point of a block of 2048 is the one with the cloud's point at the shifted position. -/
theorem dotP_blk2048 {n : Nat} (x : Pts n) (y : Pts 8192) (b : Fin 4) (p : Fin n) (q : Fin 2048) :
    dotP x (blk2048 y b) p q = dotP x y p (pos2048 b q) := rfl

/-- The inner product of a point of a block of 512 is the one of the cloud's point at the shifted position. -/
theorem dotP_blk512 {m : Nat} (x : Pts 8192) (y : Pts m) (a : Fin 16) (p : Fin 512) (q : Fin m) :
    dotP (blk512 x a) y p q = dotP x y (pos512 a p) q := rfl

/-- The distance to a point of a block of 2048 is the distance to the cloud's point at the shifted position. -/
theorem distP_blk2048 {n : Nat} (x : Pts n) (y : Pts 8192) (b : Fin 4) (p : Fin n) (q : Fin 2048) :
    distP x (blk2048 y b) p q = distP x y p (pos2048 b q) := by
  unfold distP
  rw [sqP_blk2048, dotP_blk2048]

/-- The distance from a point of a block of 512 is the distance from the cloud's point at the shifted position. -/
theorem distP_blk512 {m : Nat} (x : Pts 8192) (y : Pts m) (a : Fin 16) (p : Fin 512) (q : Fin m) :
    distP (blk512 x a) y p q = distP x y (pos512 a p) q := by
  unfold distP
  rw [sqP_blk512, dotP_blk512]

/-! ## The least distance over four blocks -/

/-- The least distance from a point of block `a` of `x` to block `b` of `y` is the fold, from `+inf`, of the
    cloud's distances over block `b`. -/
theorem minOver_blk (x y : Pts 8192) (a : Fin 16) (b : Fin 4) (p : Fin 512) :
    minOver (blk512 x a) (blk2048 y b) p = blockFold infW (fun q => distP x y (pos512 a p) q) b := by
  have h : (fun q => distP (blk512 x a) (blk2048 y b) p q) = (fun q => distP x y (pos512 a p) (pos2048 b q)) := by
    funext q
    rw [distP_blk512, distP_blk2048]
  unfold minOver blockFold
  rw [h]

/-- The least distance from a point of block `a` of `x` to the whole cloud `y` is the running minimum, started at
    `+inf`, of its least distances to the four blocks of `y`. -/
theorem minOver_blocks (x y : Pts 8192) (a : Fin 16) (p : Fin 512) :
    minOver x y (pos512 a p)
      = min (min (min (min infW (minOver (blk512 x a) (blk2048 y 0) p)) (minOver (blk512 x a) (blk2048 y 1) p))
          (minOver (blk512 x a) (blk2048 y 2) p)) (minOver (blk512 x a) (blk2048 y 3) p) := by
  rw [minOver_blk, minOver_blk, minOver_blk, minOver_blk]
  unfold minOver
  exact fold_min_blocks4 infW (fun q => distP x y (pos512 a p) q)

end Cert.Spec

end
-- ==== Proof.KIdealValue.lean ====
/-
  What pallas_call 0 of `KernelIdeal` leaves in its output array, read at one row.

  The grid's 64 points are 16 row blocks against 4 column blocks: point `t` is row block `t / 4` against column block
  `t % 4`. The first window's block at `t` is block `t / 4` of 512 points of its array, the second window's is block
  `t % 4` of 2048 points of its array: an element of a block sits in the array at the block index times the block's size
  plus its place in the block, and the index maps are decided once over the grid. The scratch after point `t` is a
  running minimum: at the first column block of a row block the smaller of `+inf` and the least distance to block 0 of
  the second cloud, afterwards the smaller of what the point before left and the least distance to this column block.
  Unrolled over the four column blocks of row block `a`, row `p` of the scratch at point `4 * a + 3` is the running
  minimum, started at `+inf`, of the least distances from point `512 * a + p` of the first cloud to the four blocks of
  the second, which is the least distance to the whole second cloud. The output is written back exactly at those
  points, block `a` of 512 rows each time; the sixteen blocks tile the array's 8192 rows, and each is its block of the
  one function "row `i` ↦ the least distance from point `i` of the first cloud to the second". So the array ends
  holding that function.
-/
import proofs.«123189_j2370821948077_1_alg».proof.Proof.KIdealR0Body
import proofs.«123189_j2370821948077_1_alg».proof.Proof.KIdealPay
import proofs.«123189_j2370821948077_1_alg».proof.Proof.SpecLemmas
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable (V : (c : Dev nD) → (b : Ref sig .tc) → Buf (Elt Ideal) ((c : Thread nD τ).loc b))

/-- The first window's array, as a cloud of 8192 points. -/
abbrev arrX (c : Dev nD) : Cert.Spec.Pts 8192 := V c (Pipeline.arrRef spec0 0)
/-- The second window's array, as a cloud of 8192 points. -/
abbrev arrY (c : Dev nD) : Cert.Spec.Pts 8192 := V c (Pipeline.arrRef spec0 1)

/-! ## The index maps over the grid -/

/-- The grid has 64 points. -/
theorem N_eq : cfg0.N = 64 := N_0

/-- Point `t` is row block `t / 4` against column block `t % 4`: the first window's block index is `(t / 4, 0)`, -/
theorem idx_in0 : ∀ t : Fin cfg0.N, (cfg0.win 0).index t (0 : Fin 2) = t.val / 4 ∧ (cfg0.win 0).index t (1 : Fin 2) = 0 :=
  (by decide +kernel : ∀ t : Fin grid0.N, (cfg0.win 0).index t (0 : Fin 2) = t.val / 4 ∧ (cfg0.win 0).index t (1 : Fin 2) = 0)
/-- the second window's is `(t % 4, 0)`, -/
theorem idx_in1 : ∀ t : Fin cfg0.N, (cfg0.win 1).index t (0 : Fin 2) = t.val % 4 ∧ (cfg0.win 1).index t (1 : Fin 2) = 0 :=
  (by decide +kernel : ∀ t : Fin grid0.N, (cfg0.win 1).index t (0 : Fin 2) = t.val % 4 ∧ (cfg0.win 1).index t (1 : Fin 2) = 0)
/-- the output window's is `(t / 4, 0)`, -/
theorem idx_out : ∀ t : Fin cfg0.N, (cfg0.win 2).index t (0 : Fin 2) = t.val / 4 ∧ (cfg0.win 2).index t (1 : Fin 2) = 0 :=
  (by decide +kernel : ∀ t : Fin grid0.N, (cfg0.win 2).index t (0 : Fin 2) = t.val / 4 ∧ (cfg0.win 2).index t (1 : Fin 2) = 0)
/-- and the output is written back exactly at the last column block of each row block. -/
theorem flush_out : ∀ t : Fin cfg0.N, (cfg0.win 2).flush t = true ↔ t.val % 4 = 3 :=
  (by decide +kernel : ∀ t : Fin grid0.N, (cfg0.win 2).flush t = true ↔ t.val % 4 = 3)

/-! ## The input blocks as blocks of the clouds -/

/-- The first window's block at point `t` is block `t / 4` of 512 points of its array: an element of a block sits in the
    array at the block index times the block's size plus its place in the block. -/
theorem iblk_in0 (c : Dev nD) (t : Fin cfg0.N) (a : Fin 16) (ha : t.val / 4 = a.val) :
    (iblk V c 0 t : Vec Ideal S512x3 .f32) = Cert.Spec.blk512 (arrX V c) a := by
  funext y
  show V c (Pipeline.arrRef spec0 0) (((cfg0.win 0).blk t).view.emb y)
    = V c (Pipeline.arrRef spec0 0) (ix2 (⟨512 * a.val + (y 0).val, by have h0 : (y 0).val < 512 := (y 0).isLt; have := a.isLt; omega⟩ : Fin 8192) (y 1))
  refine congrArg (V c (Pipeline.arrRef spec0 0)) (funext fun ax => Fin.ext ?_)
  obtain ⟨e0, e1⟩ := idx_in0 t
  match ax with
  | ⟨0, _⟩ => show (cfg0.win 0).index t (0 : Fin 2) * 512 + 1 * (y 0).val = 512 * a.val + (y 0).val; omega
  | ⟨1, _⟩ => show (cfg0.win 0).index t (1 : Fin 2) * 3 + 1 * (y 1).val = (y 1).val; omega

/-- The second window's block at point `t` is block `t % 4` of 2048 points of its array. -/
theorem iblk_in1 (c : Dev nD) (t : Fin cfg0.N) (b : Fin 4) (hb : t.val % 4 = b.val) :
    (iblk V c 1 t : Vec Ideal S2048x3 .f32) = Cert.Spec.blk2048 (arrY V c) b := by
  funext y
  show V c (Pipeline.arrRef spec0 1) (((cfg0.win 1).blk t).view.emb y)
    = V c (Pipeline.arrRef spec0 1) (ix2 (⟨2048 * b.val + (y 0).val, by have h0 : (y 0).val < 2048 := (y 0).isLt; have := b.isLt; omega⟩ : Fin 8192) (y 1))
  refine congrArg (V c (Pipeline.arrRef spec0 1)) (funext fun ax => Fin.ext ?_)
  obtain ⟨e0, e1⟩ := idx_in1 t
  match ax with
  | ⟨0, _⟩ => show (cfg0.win 1).index t (0 : Fin 2) * 2048 + 1 * (y 0).val = 2048 * b.val + (y 0).val; omega
  | ⟨1, _⟩ => show (cfg0.win 1).index t (1 : Fin 2) * 3 + 1 * (y 1).val = (y 1).val; omega

/-! ## The running minimum over a row block -/

/-- At the first column block of row block `a` the scratch holds, at row `p`, the smaller of `+inf` and the least
    distance from point `p` of block `a` of the first cloud to block 0 of the second. -/
theorem scAt_reset_apply (c : Dev nD) (n : ℕ) (hn : n < cfg0.N) (a : Fin 16) (ha : n / 4 = a.val) (hb : n % 4 = 0) (p : Fin 512) :
    scAt V c n hn (ix2 p (0 : Fin 1))
      = min Cert.Spec.infW (Cert.Spec.minOver (Cert.Spec.blk512 (arrX V c) a) (Cert.Spec.blk2048 (arrY V c) 0) p) := by
  rw [scAt_reset V c ⟨n, hn⟩ hb]
  refine (Pay.k0_pay2_apply (iblk V c 0 ⟨n, hn⟩) (iblk V c 1 ⟨n, hn⟩) (k0_pay1 (F := Ideal)) p).trans ?_
  rw [Pay.k0_pay1_apply, iblk_in0 V c ⟨n, hn⟩ a ha, iblk_in1 V c ⟨n, hn⟩ 0 hb]

/-- At a later column block `b` of row block `a` it holds the smaller of what the point before left and the least
    distance to block `b` of the second cloud. -/
theorem scAt_step_apply (c : Dev nD) (n : ℕ) (hn : n + 1 < cfg0.N) (a : Fin 16) (b : Fin 4) (ha : (n + 1) / 4 = a.val)
    (hb : (n + 1) % 4 = b.val) (hb0 : ¬(n + 1) % 4 = 0) (p : Fin 512) :
    scAt V c (n + 1) hn (ix2 p (0 : Fin 1))
      = min (scAt V c n (Nat.lt_of_succ_lt hn) (ix2 p (0 : Fin 1)))
          (Cert.Spec.minOver (Cert.Spec.blk512 (arrX V c) a) (Cert.Spec.blk2048 (arrY V c) b) p) := by
  rw [scAt_step V c ⟨n + 1, hn⟩ hb0]
  refine (Pay.k0_pay2_apply (iblk V c 0 ⟨n + 1, hn⟩) (iblk V c 1 ⟨n + 1, hn⟩) (scAt V c n (Nat.lt_of_succ_lt hn)) p).trans ?_
  rw [iblk_in0 V c ⟨n + 1, hn⟩ a ha, iblk_in1 V c ⟨n + 1, hn⟩ b hb]

/-- So at the last column block of row block `a` the scratch holds, at row `p`, the least distance from point
    `512 * a + p` of the first cloud to the whole second cloud: the running minimum, started at `+inf`, over the four
    blocks of the second cloud. -/
theorem scAt_last (c : Dev nD) (t : Fin cfg0.N) (h3 : t.val % 4 = 3) (a : Fin 16) (ha : t.val / 4 = a.val) (p : Fin 512) :
    scAt V c t.val t.isLt (ix2 p (0 : Fin 1)) = Cert.Spec.minOver (arrX V c) (arrY V c) (Cert.Spec.pos512 a p) := by
  obtain ⟨n, hn⟩ := t
  have hn' : n = 4 * a.val + 2 + 1 := by
    have h3' : n % 4 = 3 := h3
    have ha' : n / 4 = a.val := ha
    omega
  subst hn'
  rw [Cert.Spec.minOver_blocks]
  refine (scAt_step_apply V c (4 * a.val + 2) hn a 3 (by omega) (by show _ = 3; omega) (by omega) p).trans ?_
  refine congrArg (fun s => min s _) ?_
  refine (scAt_step_apply V c (4 * a.val + 1) _ a 2 (by omega) (by show _ = 2; omega) (by omega) p).trans ?_
  refine congrArg (fun s => min s _) ?_
  refine (scAt_step_apply V c (4 * a.val) _ a 1 (by omega) (by show _ = 1; omega) (by omega) p).trans ?_
  refine congrArg (fun s => min s _) ?_
  exact scAt_reset_apply V c (4 * a.val) _ a (by omega) (by omega) p

/-! ## What the output's array ends holding -/

/-- The least distance from each point of the first cloud to the second cloud, as contents of the output's array
    of 8192 rows and one column. -/
def rowMinArr (c : Dev nD) : S8192x1.Idx → Elt Ideal .f32 :=
  fun ix => Cert.Spec.rowMin (arrX V c) (arrY V c) (ix 0)

/-- What a point at the last column block of a row block writes back is its block of `rowMinArr`: row `p` of what the
    scratch holds there is the least distance from point `512 * (t / 4) + p`, and that is where row `p` of the block
    sits in the array. -/
theorem flushed_eq (c : Dev nD) (t : Fin cfg0.N) (hf : (cfg0.win 2).flush t = true) :
    (dat V c).flushed 2 t = ((cfg0.win 2).blk t).view.read (Elt Ideal) (rowMinArr V c) := by
  have h3 : t.val % 4 = 3 := (flush_out t).mp hf
  have hN : t.val < 64 := lt_of_lt_of_eq t.isLt N_eq
  show (cfg0.win 2).cut (grid0.coords t) ((dat V c).after 2 t) = _
  rw [after2]
  funext j
  have hj0 : (j 0).val < 512 := (j 0).isLt
  have hj1 : (j 1).val < 1 := (j 1).isLt
  have hx : (cfg0.win 2).xinj (grid0.coords t) j = ix2 (⟨(j 0).val, hj0⟩ : Fin 512) (0 : Fin 1) := by
    funext ax
    apply Fin.ext
    match ax with
    | ⟨0, _⟩ => rfl
    | ⟨1, _⟩ => show (j 1).val = 0; omega
  show scAt V c t.val t.isLt ((cfg0.win 2).xinj (grid0.coords t) j) = rowMinArr V c (((cfg0.win 2).blk t).view.emb j)
  refine (congrArg (scAt V c t.val t.isLt) hx).trans ?_
  refine (scAt_last V c t h3 ⟨t.val / 4, by omega⟩ rfl ⟨(j 0).val, hj0⟩).trans ?_
  show Cert.Spec.minOver (arrX V c) (arrY V c) _
    = Cert.Spec.minOver (arrX V c) (arrY V c) ((((cfg0.win 2).blk t).view.emb j) 0)
  refine congrArg (Cert.Spec.minOver (arrX V c) (arrY V c)) (Fin.ext ?_)
  obtain ⟨e0, e1⟩ := idx_out t
  show 512 * (t.val / 4) + (j 0).val = (cfg0.win 2).index t (0 : Fin 2) * 512 + 1 * (j 0).val
  omega

/-- A row of the array is in point `t`'s block of the output exactly when each coordinate is in the block's range. -/
theorem mem_blk_out (t : Fin cfg0.N) (i : S8192x1.Idx) :
    i ∈ ((cfg0.win 2).blk t).view.set ↔ ∀ a : Fin 2, (cfg0.win 2).index t a * S512x1.size a ≤ (i a).val
      ∧ (i a).val < (cfg0.win 2).index t a * S512x1.size a + S512x1.size a := by
  show i ∈ ((View.whole (Pipeline.arrRef spec0 2)).slice ((cfg0.win 2).rect t)).set ↔ _
  rw [View.set_slice_whole, Rect.mem_set_unit]
  exact Iff.rfl

/-- Every row `i` of the array lies in the block of the point `4 * (i / 512) + 3`, which writes its block back. -/
theorem cover_out (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 64 := N_eq
  obtain ⟨t, ht⟩ : ∃ t : Fin cfg0.N, t.val = 4 * ((i 0).val / 512) + 3 := ⟨⟨4 * ((i 0).val / 512) + 3, by omega⟩, rfl⟩
  refine ⟨t, (flush_out t).mpr (by omega), ?_⟩
  rw [mem_blk_out]
  obtain ⟨e0, e1⟩ := idx_out t
  intro a
  match a with
  | ⟨0, _⟩ =>
    show (cfg0.win 2).index t (0 : Fin 2) * 512 ≤ (i 0).val ∧ (i 0).val < (cfg0.win 2).index t (0 : Fin 2) * 512 + 512
    omega
  | ⟨1, _⟩ =>
    show (cfg0.win 2).index t (1 : Fin 2) * 1 ≤ (i 1).val ∧ (i 1).val < (cfg0.win 2).index t (1 : Fin 2) * 1 + 1
    omega

/-- So after all 64 points the output's array holds the least distances: the blocks written back tile it, and each is
    its block of `rowMinArr`. -/
theorem arr_out (c : Dev nD) : (dat V c).arrAt 2 cfg0.N = rowMinArr V c :=
  (dat V c).arrAt_eq_of_cover 2 (rowMinArr V c) (flushed_eq V c) cover_out

/-- The output array after all 64 points, at row `i`, is the least distance from point `i` of the first window's array
    to a point of the second window's array. -/
theorem out_eq (c : Dev nD) (i : Fin 8192) :
    (dat V c).arrAt 2 cfg0.N (ix2 i (0 : Fin 1))
      = Cert.Spec.rowMin (V c (Pipeline.arrRef spec0 0)) (V c (Pipeline.arrRef spec0 1)) i :=
  congrFun (arr_out V c) (ix2 i (0 : Fin 1))

end

end Cert.KernelIdeal.Reg0

end
-- ==== Proof.KIdealValue1.lean ====
/-
  What pallas_call 1 of `KernelIdeal` leaves in its output array, read at one row.

  The grid's 64 points are 16 row blocks against 4 column blocks: point `t` is row block `t / 4` against column block
  `t % 4`. The first window's block at `t` is block `t / 4` of 512 points of its array, the second window's is block
  `t % 4` of 2048 points of its array: an element of a block sits in the array at the block index times the block's size
  plus its place in the block, and the index maps are decided once over the grid. The scratch after point `t` is a
  running minimum: at the first column block of a row block the smaller of `+inf` and the least distance to block 0 of
  the second cloud, afterwards the smaller of what the point before left and the least distance to this column block.
  Unrolled over the four column blocks of row block `a`, row `p` of the scratch at point `4 * a + 3` is the running
  minimum, started at `+inf`, of the least distances from point `512 * a + p` of the first cloud to the four blocks of
  the second, which is the least distance to the whole second cloud. The output is written back exactly at those
  points, block `a` of 512 rows each time; the sixteen blocks tile the array's 8192 rows, and each is its block of the
  one function "row `i` ↦ the least distance from point `i` of the first cloud to the second". So the array ends
  holding that function.
-/
import proofs.«123189_j2370821948077_1_alg».proof.Proof.KIdealR1Body
import proofs.«123189_j2370821948077_1_alg».proof.Proof.KIdealPay
import proofs.«123189_j2370821948077_1_alg».proof.Proof.SpecLemmas
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable (V : (c : Dev nD) → (b : Ref sig .tc) → Buf (Elt Ideal) ((c : Thread nD τ).loc b))

/-- The first window's array, as a cloud of 8192 points. -/
abbrev arrX (c : Dev nD) : Cert.Spec.Pts 8192 := V c (Pipeline.arrRef spec1 0)
/-- The second window's array, as a cloud of 8192 points. -/
abbrev arrY (c : Dev nD) : Cert.Spec.Pts 8192 := V c (Pipeline.arrRef spec1 1)

/-! ## The index maps over the grid -/

/-- The grid has 64 points. -/
theorem N_eq : cfg1.N = 64 := N_1

/-- Point `t` is row block `t / 4` against column block `t % 4`: the first window's block index is `(t / 4, 0)`, -/
theorem idx_in0 : ∀ t : Fin cfg1.N, (cfg1.win 0).index t (0 : Fin 2) = t.val / 4 ∧ (cfg1.win 0).index t (1 : Fin 2) = 0 :=
  (by decide +kernel : ∀ t : Fin grid1.N, (cfg1.win 0).index t (0 : Fin 2) = t.val / 4 ∧ (cfg1.win 0).index t (1 : Fin 2) = 0)
/-- the second window's is `(t % 4, 0)`, -/
theorem idx_in1 : ∀ t : Fin cfg1.N, (cfg1.win 1).index t (0 : Fin 2) = t.val % 4 ∧ (cfg1.win 1).index t (1 : Fin 2) = 0 :=
  (by decide +kernel : ∀ t : Fin grid1.N, (cfg1.win 1).index t (0 : Fin 2) = t.val % 4 ∧ (cfg1.win 1).index t (1 : Fin 2) = 0)
/-- the output window's is `(t / 4, 0)`, -/
theorem idx_out : ∀ t : Fin cfg1.N, (cfg1.win 2).index t (0 : Fin 2) = t.val / 4 ∧ (cfg1.win 2).index t (1 : Fin 2) = 0 :=
  (by decide +kernel : ∀ t : Fin grid1.N, (cfg1.win 2).index t (0 : Fin 2) = t.val / 4 ∧ (cfg1.win 2).index t (1 : Fin 2) = 0)
/-- and the output is written back exactly at the last column block of each row block. -/
theorem flush_out : ∀ t : Fin cfg1.N, (cfg1.win 2).flush t = true ↔ t.val % 4 = 3 :=
  (by decide +kernel : ∀ t : Fin grid1.N, (cfg1.win 2).flush t = true ↔ t.val % 4 = 3)

/-! ## The input blocks as blocks of the clouds -/

/-- The first window's block at point `t` is block `t / 4` of 512 points of its array: an element of a block sits in the
    array at the block index times the block's size plus its place in the block. -/
theorem iblk_in0 (c : Dev nD) (t : Fin cfg1.N) (a : Fin 16) (ha : t.val / 4 = a.val) :
    (iblk V c 0 t : Vec Ideal S512x3 .f32) = Cert.Spec.blk512 (arrX V c) a := by
  funext y
  show V c (Pipeline.arrRef spec1 0) (((cfg1.win 0).blk t).view.emb y)
    = V c (Pipeline.arrRef spec1 0) (ix2 (⟨512 * a.val + (y 0).val, by have h0 : (y 0).val < 512 := (y 0).isLt; have := a.isLt; omega⟩ : Fin 8192) (y 1))
  refine congrArg (V c (Pipeline.arrRef spec1 0)) (funext fun ax => Fin.ext ?_)
  obtain ⟨e0, e1⟩ := idx_in0 t
  match ax with
  | ⟨0, _⟩ => show (cfg1.win 0).index t (0 : Fin 2) * 512 + 1 * (y 0).val = 512 * a.val + (y 0).val; omega
  | ⟨1, _⟩ => show (cfg1.win 0).index t (1 : Fin 2) * 3 + 1 * (y 1).val = (y 1).val; omega

/-- The second window's block at point `t` is block `t % 4` of 2048 points of its array. -/
theorem iblk_in1 (c : Dev nD) (t : Fin cfg1.N) (b : Fin 4) (hb : t.val % 4 = b.val) :
    (iblk V c 1 t : Vec Ideal S2048x3 .f32) = Cert.Spec.blk2048 (arrY V c) b := by
  funext y
  show V c (Pipeline.arrRef spec1 1) (((cfg1.win 1).blk t).view.emb y)
    = V c (Pipeline.arrRef spec1 1) (ix2 (⟨2048 * b.val + (y 0).val, by have h0 : (y 0).val < 2048 := (y 0).isLt; have := b.isLt; omega⟩ : Fin 8192) (y 1))
  refine congrArg (V c (Pipeline.arrRef spec1 1)) (funext fun ax => Fin.ext ?_)
  obtain ⟨e0, e1⟩ := idx_in1 t
  match ax with
  | ⟨0, _⟩ => show (cfg1.win 1).index t (0 : Fin 2) * 2048 + 1 * (y 0).val = 2048 * b.val + (y 0).val; omega
  | ⟨1, _⟩ => show (cfg1.win 1).index t (1 : Fin 2) * 3 + 1 * (y 1).val = (y 1).val; omega

/-! ## The running minimum over a row block -/

/-- At the first column block of row block `a` the scratch holds, at row `p`, the smaller of `+inf` and the least
    distance from point `p` of block `a` of the first cloud to block 0 of the second. -/
theorem scAt_reset_apply (c : Dev nD) (n : ℕ) (hn : n < cfg1.N) (a : Fin 16) (ha : n / 4 = a.val) (hb : n % 4 = 0) (p : Fin 512) :
    scAt V c n hn (ix2 p (0 : Fin 1))
      = min Cert.Spec.infW (Cert.Spec.minOver (Cert.Spec.blk512 (arrX V c) a) (Cert.Spec.blk2048 (arrY V c) 0) p) := by
  rw [scAt_reset V c ⟨n, hn⟩ hb]
  refine (Pay.k1_pay2_apply (iblk V c 0 ⟨n, hn⟩) (iblk V c 1 ⟨n, hn⟩) (k1_pay1 (F := Ideal)) p).trans ?_
  rw [Pay.k1_pay1_apply, iblk_in0 V c ⟨n, hn⟩ a ha, iblk_in1 V c ⟨n, hn⟩ 0 hb]

/-- At a later column block `b` of row block `a` it holds the smaller of what the point before left and the least
    distance to block `b` of the second cloud. -/
theorem scAt_step_apply (c : Dev nD) (n : ℕ) (hn : n + 1 < cfg1.N) (a : Fin 16) (b : Fin 4) (ha : (n + 1) / 4 = a.val)
    (hb : (n + 1) % 4 = b.val) (hb0 : ¬(n + 1) % 4 = 0) (p : Fin 512) :
    scAt V c (n + 1) hn (ix2 p (0 : Fin 1))
      = min (scAt V c n (Nat.lt_of_succ_lt hn) (ix2 p (0 : Fin 1)))
          (Cert.Spec.minOver (Cert.Spec.blk512 (arrX V c) a) (Cert.Spec.blk2048 (arrY V c) b) p) := by
  rw [scAt_step V c ⟨n + 1, hn⟩ hb0]
  refine (Pay.k1_pay2_apply (iblk V c 0 ⟨n + 1, hn⟩) (iblk V c 1 ⟨n + 1, hn⟩) (scAt V c n (Nat.lt_of_succ_lt hn)) p).trans ?_
  rw [iblk_in0 V c ⟨n + 1, hn⟩ a ha, iblk_in1 V c ⟨n + 1, hn⟩ b hb]

/-- So at the last column block of row block `a` the scratch holds, at row `p`, the least distance from point
    `512 * a + p` of the first cloud to the whole second cloud: the running minimum, started at `+inf`, over the four
    blocks of the second cloud. -/
theorem scAt_last (c : Dev nD) (t : Fin cfg1.N) (h3 : t.val % 4 = 3) (a : Fin 16) (ha : t.val / 4 = a.val) (p : Fin 512) :
    scAt V c t.val t.isLt (ix2 p (0 : Fin 1)) = Cert.Spec.minOver (arrX V c) (arrY V c) (Cert.Spec.pos512 a p) := by
  obtain ⟨n, hn⟩ := t
  have hn' : n = 4 * a.val + 2 + 1 := by
    have h3' : n % 4 = 3 := h3
    have ha' : n / 4 = a.val := ha
    omega
  subst hn'
  rw [Cert.Spec.minOver_blocks]
  refine (scAt_step_apply V c (4 * a.val + 2) hn a 3 (by omega) (by show _ = 3; omega) (by omega) p).trans ?_
  refine congrArg (fun s => min s _) ?_
  refine (scAt_step_apply V c (4 * a.val + 1) _ a 2 (by omega) (by show _ = 2; omega) (by omega) p).trans ?_
  refine congrArg (fun s => min s _) ?_
  refine (scAt_step_apply V c (4 * a.val) _ a 1 (by omega) (by show _ = 1; omega) (by omega) p).trans ?_
  refine congrArg (fun s => min s _) ?_
  exact scAt_reset_apply V c (4 * a.val) _ a (by omega) (by omega) p

/-! ## What the output's array ends holding -/

/-- The least distance from each point of the first cloud to the second cloud, as contents of the output's array
    of 8192 rows and one column. -/
def rowMinArr (c : Dev nD) : S8192x1.Idx → Elt Ideal .f32 :=
  fun ix => Cert.Spec.rowMin (arrX V c) (arrY V c) (ix 0)

/-- What a point at the last column block of a row block writes back is its block of `rowMinArr`: row `p` of what the
    scratch holds there is the least distance from point `512 * (t / 4) + p`, and that is where row `p` of the block
    sits in the array. -/
theorem flushed_eq (c : Dev nD) (t : Fin cfg1.N) (hf : (cfg1.win 2).flush t = true) :
    (dat V c).flushed 2 t = ((cfg1.win 2).blk t).view.read (Elt Ideal) (rowMinArr V c) := by
  have h3 : t.val % 4 = 3 := (flush_out t).mp hf
  have hN : t.val < 64 := lt_of_lt_of_eq t.isLt N_eq
  show (cfg1.win 2).cut (grid1.coords t) ((dat V c).after 2 t) = _
  rw [after2]
  funext j
  have hj0 : (j 0).val < 512 := (j 0).isLt
  have hj1 : (j 1).val < 1 := (j 1).isLt
  have hx : (cfg1.win 2).xinj (grid1.coords t) j = ix2 (⟨(j 0).val, hj0⟩ : Fin 512) (0 : Fin 1) := by
    funext ax
    apply Fin.ext
    match ax with
    | ⟨0, _⟩ => rfl
    | ⟨1, _⟩ => show (j 1).val = 0; omega
  show scAt V c t.val t.isLt ((cfg1.win 2).xinj (grid1.coords t) j) = rowMinArr V c (((cfg1.win 2).blk t).view.emb j)
  refine (congrArg (scAt V c t.val t.isLt) hx).trans ?_
  refine (scAt_last V c t h3 ⟨t.val / 4, by omega⟩ rfl ⟨(j 0).val, hj0⟩).trans ?_
  show Cert.Spec.minOver (arrX V c) (arrY V c) _
    = Cert.Spec.minOver (arrX V c) (arrY V c) ((((cfg1.win 2).blk t).view.emb j) 0)
  refine congrArg (Cert.Spec.minOver (arrX V c) (arrY V c)) (Fin.ext ?_)
  obtain ⟨e0, e1⟩ := idx_out t
  show 512 * (t.val / 4) + (j 0).val = (cfg1.win 2).index t (0 : Fin 2) * 512 + 1 * (j 0).val
  omega

/-- A row of the array is in point `t`'s block of the output exactly when each coordinate is in the block's range. -/
theorem mem_blk_out (t : Fin cfg1.N) (i : S8192x1.Idx) :
    i ∈ ((cfg1.win 2).blk t).view.set ↔ ∀ a : Fin 2, (cfg1.win 2).index t a * S512x1.size a ≤ (i a).val
      ∧ (i a).val < (cfg1.win 2).index t a * S512x1.size a + S512x1.size a := by
  show i ∈ ((View.whole (Pipeline.arrRef spec1 2)).slice ((cfg1.win 2).rect t)).set ↔ _
  rw [View.set_slice_whole, Rect.mem_set_unit]
  exact Iff.rfl

/-- Every row `i` of the array lies in the block of the point `4 * (i / 512) + 3`, which writes its block back. -/
theorem cover_out (i : S8192x1.Idx) :
    ∃ t : Fin cfg1.N, (cfg1.win 2).flush t = true ∧ i ∈ ((cfg1.win 2).blk t).view.set := by
  have hi0 : (i 0).val < 8192 := (i 0).isLt
  have hi1 : (i 1).val < 1 := (i 1).isLt
  have hN : cfg1.N = 64 := N_eq
  obtain ⟨t, ht⟩ : ∃ t : Fin cfg1.N, t.val = 4 * ((i 0).val / 512) + 3 := ⟨⟨4 * ((i 0).val / 512) + 3, by omega⟩, rfl⟩
  refine ⟨t, (flush_out t).mpr (by omega), ?_⟩
  rw [mem_blk_out]
  obtain ⟨e0, e1⟩ := idx_out t
  intro a
  match a with
  | ⟨0, _⟩ =>
    show (cfg1.win 2).index t (0 : Fin 2) * 512 ≤ (i 0).val ∧ (i 0).val < (cfg1.win 2).index t (0 : Fin 2) * 512 + 512
    omega
  | ⟨1, _⟩ =>
    show (cfg1.win 2).index t (1 : Fin 2) * 1 ≤ (i 1).val ∧ (i 1).val < (cfg1.win 2).index t (1 : Fin 2) * 1 + 1
    omega

/-- So after all 64 points the output's array holds the least distances: the blocks written back tile it, and each is
    its block of `rowMinArr`. -/
theorem arr_out (c : Dev nD) : (dat V c).arrAt 2 cfg1.N = rowMinArr V c :=
  (dat V c).arrAt_eq_of_cover 2 (rowMinArr V c) (flushed_eq V c) cover_out

/-- The output array after all 64 points, at row `i`, is the least distance from point `i` of the first window's array
    to a point of the second window's array. -/
theorem out_eq (c : Dev nD) (i : Fin 8192) :
    (dat V c).arrAt 2 cfg1.N (ix2 i (0 : Fin 1))
      = Cert.Spec.rowMin (V c (Pipeline.arrRef spec1 0)) (V c (Pipeline.arrRef spec1 1)) i :=
  congrFun (arr_out V c) (ix2 i (0 : Fin 1))

end

end Cert.KernelIdeal.Reg1

end
-- ==== Proof.KIdealResult.lean ====
/-
  The kernel's result read off its run: when @main returns, the result buffer holds the mean over the points of the
  first cloud of their least distance to the second cloud, plus the mean over the points of the second cloud of their
  least distance to the first.

  The host tail is the sum of the means of two vectors; the first is the first call's output column reshaped to a
  vector, the second the second call's. A column `[8192, 1]` cast to a vector reads at `i` what the column holds at
  `(i, 0)`, and each output column holds the row minima of its call's distance matrix. The second call is entered
  with both arguments as launched, since nothing before it writes an argument, and it takes them in the other order.
-/
import proofs.«123189_j2370821948077_1_alg».proof.Proof.KIdealWhole
import proofs.«123189_j2370821948077_1_alg».proof.Proof.SpecMean
import proofs.«123189_j2370821948077_1_alg».proof.Proof.KIdealValue
import proofs.«123189_j2370821948077_1_alg».proof.Proof.KIdealValue1
import Idealize.ShloMosaic.Lib.StableHlo.Run
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- An `[a, 1]` array cast to `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-! ## The host tail: the result is the sum of the means of the two vectors -/

/-- The ten closing operations read back: the sum of the means of the reshaped first output (already a vector
    when the tail starts) and of the second output, reshaped by the tail's first operation. -/
theorem tail_eq (c : Dev nD) :
    (bufs4 (F := Ideal) m c (Proc.devRef .tc main_v8) : S_.Idx → EReal)
      = Cert.Spec.meanSum reducesTo_S8192_S_d0 h_S_ (bufs3 m c (Proc.devRef .tc main_v1))
          (shapeCast S8192 (bufs3 m c (Proc.devRef .tc main_v2)) shapeCasts_S8192x1_S8192) := by
  show StableHlo.after hostOps2 (bufs3 m c) (Proc.devRef .tc main_v8) = _
  after_results
  rfl

/-- The reshape between the two calls. -/
theorem v1_eq (c : Dev nD) :
    (bufs2 (F := Ideal) m c (Proc.devRef .tc main_v1) : S8192.Idx → EReal)
      = shapeCast S8192 (bufs1 m c (Proc.devRef .tc main_v0)) shapeCasts_S8192x1_S8192 := by
  show StableHlo.after hostOps1 (bufs1 m c) (Proc.devRef .tc main_v1) = _
  after_results
  rfl

/-! ## The second call is entered with the arguments as launched -/

theorem bufs2_main_arg0 (c : Dev nD) : bufs2 (F := Ideal) m c (Proc.devRef .tc main_arg0) = m ((c : Thread nD τ).loc main_arg0) :=
  (StableHlo.after_of_writes_sub hostOps1 _ hostOps1_writes (by decide)).trans
    ((bufs1_arr m c 0).trans (((Reg0.dat (ent0 m) c).arrAt_in 0 rfl _).trans (Reg0.A_eq (ent0 m) c 0)))
theorem bufs2_main_arg1 (c : Dev nD) : bufs2 (F := Ideal) m c (Proc.devRef .tc main_arg1) = m ((c : Thread nD τ).loc main_arg1) :=
  (StableHlo.after_of_writes_sub hostOps1 _ hostOps1_writes (by decide)).trans
    ((bufs1_arr m c 1).trans (((Reg0.dat (ent0 m) c).arrAt_in 1 rfl _).trans (Reg0.A_eq (ent0 m) c 1)))

/-! ## The two vectors -/

/-- The first vector: row `i` of the first call's output, the least distance from point `i` of the first argument to the second. -/
theorem vec0_eq (c : Dev nD) :
    (bufs3 (F := Ideal) m c (Proc.devRef .tc main_v1) : S8192.Idx → EReal)
      = fun ix => Cert.Spec.rowMin (m ((c : Thread nD τ).loc main_arg0)) (m ((c : Thread nD τ).loc main_arg1)) (ix 0) := by
  funext ix
  obtain ⟨i, rfl⟩ : ∃ i : Fin 8192, ix = ix1 i := ⟨ix 0, eq_ix1 ix⟩
  rw [show bufs3 m c (Proc.devRef .tc main_v1) = bufs2 m c (Proc.devRef .tc main_v1) from bufs3_of_ne m c main_v1 (by decide), v1_eq m c]
  refine (shapeCast_a1_a_apply _ shapeCasts_S8192x1_S8192 i).trans ?_
  refine (congrFun (bufs1_arr m c 2) (ix2 i (0 : Fin 1))).trans ?_
  exact Reg0.out_eq (ent0 m) c i

/-- The second vector: row `j` of the second call's output, the least distance from point `j` of the second argument to the first. -/
theorem vec1_eq (c : Dev nD) :
    (shapeCast S8192 (bufs3 (F := Ideal) m c (Proc.devRef .tc main_v2)) shapeCasts_S8192x1_S8192 : S8192.Idx → EReal)
      = fun ix => Cert.Spec.rowMin (m ((c : Thread nD τ).loc main_arg1)) (m ((c : Thread nD τ).loc main_arg0)) (ix 0) := by
  funext ix
  obtain ⟨j, rfl⟩ : ∃ j : Fin 8192, ix = ix1 j := ⟨ix 0, eq_ix1 ix⟩
  refine (shapeCast_a1_a_apply _ shapeCasts_S8192x1_S8192 j).trans ?_
  refine (congrFun (bufs3_arr m c 2) (ix2 j (0 : Fin 1))).trans ?_
  refine (Reg1.out_eq (ent1 m) c j).trans ?_
  show Cert.Spec.rowMin (bufs2 m c (Proc.devRef .tc main_arg1)) (bufs2 m c (Proc.devRef .tc main_arg0)) j = _
  rw [bufs2_main_arg0, bufs2_main_arg1]

/-- THE KERNEL'S RESULT: the mean over the points of the first cloud of their least distance to the second, plus the
    mean over the points of the second of their least distance to the first. -/
theorem result_eq (c : Dev nD) :
    bufs4 (F := Ideal) m c (Proc.devRef .tc main_v8)
      = Cert.Spec.meanSum reducesTo_S8192_S_d0 h_S_
          (fun ix => Cert.Spec.rowMin (m ((c : Thread nD τ).loc main_arg0)) (m ((c : Thread nD τ).loc main_arg1)) (ix 0))
          (fun ix => Cert.Spec.rowMin (m ((c : Thread nD τ).loc main_arg1)) (m ((c : Thread nD τ).loc main_arg0)) (ix 0)) := by
  refine (tail_eq m c).trans ?_
  rw [vec0_eq m c, vec1_eq m c]
  rfl

end Cert.KernelIdeal.Whole

end
-- ==== Proof.RefValue.lean ====
/-
  The reference program's two nearest-point reductions, read at an index as the mathematics of the specification.

  For two clouds `x0`, `x1` of 8192 points of 3-space the reference forms the matrix of distances
  `D i j = sqrt (max ((|x0 i|² + |x1 j|²) - 2 * ⟨x0 i, x1 j⟩) 0)`, the squared norms and the inner products each a sum
  over the three coordinates, and then takes the least entry of every row and of every column, folding `min` from the
  word `+inf`.

  Read one operation at a time: the row of squared norms of `x0`, broadcast along the columns, is `sqP x0 i` at entry
  `(i, j)` (the host sum starts from the word `0.0`, which is the extended real `0`, so the sum is the bare sum); the row
  of squared norms of `x1`, broadcast along the rows, is `sqP x1 j`; the product of `x0` with the transpose of `x1` is
  `dotP x0 x1 i j`; so the entry of the matrix is `distP x0 x1 i j` (`v16_apply`), the words `2.0` and `0.0` of the
  scaling and of the clamp left as words. A reduction by `min` over one axis is the fold of `min` over that axis's
  coordinates, in any order since `min` commutes and associates: over the second axis at row `i` it folds
  `q ↦ distP x0 x1 i q`, which is `rowMin x0 x1 i` (`v17_apply`); over the first axis at column `j` it folds
  `p ↦ distP x0 x1 p j`, which is `colMin x0 x1 j` (`v20_apply`).

  The program's result is the sum of the means of the two vectors of minima. A column minimum of the matrix of
  `(x0, x1)` is a row minimum of the matrix of `(x1, x0)`, addition and multiplication of extended reals being
  commutative; so the result is `meanSum` of the row minima of `(x0, x1)` and the row minima of `(x1, x0)`
  (`result_eq`), the closing sums and divisions being `meanSum`'s own and never opened.
-/
import proofs.«123189_j2370821948077_1_alg».proof.Proof.Spec
import proofs.«123189_j2370821948077_1_alg».proof.Proof.SpecMean
import proofs.«123189_j2370821948077_1_alg».proof.Proof.SpecLemmas
import proofs.«123189_j2370821948077_1_alg».proof.Proof.Gen.ReferenceIdeal.Run
import proofs.«123189_j2370821948077_1_alg».proof.Proof.Gen.ReferenceIdeal.Read
import Idealize.ShloMosaic.PureOps.Reduce
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

/-! ## The operand indices, as indices built from typed coordinates -/

/-- Entry `(i, j)` of the broadcast squared norms of `x0` reads, at summand `k`, coordinate `k` of point `i`. -/
theorem idx_sq0 (i j : Fin 8192) (k : Fin 3) :
    Read.idx_main_v1 (Read.idx_main_v6 (Read.idx_main_v8 (ix2 i j))) k = ix2 i k := by
  funext a; match a with | ⟨0, _⟩ => rfl | ⟨1, _⟩ => rfl

/-- Entry `(i, j)` of the broadcast squared norms of `x1` reads, at summand `k`, coordinate `k` of point `j`. -/
theorem idx_sq1 (i j : Fin 8192) (k : Fin 3) :
    Read.idx_main_v3 (Read.idx_main_v7 (Read.idx_main_v9 (ix2 i j))) k = ix2 j k := by
  funext a; match a with | ⟨0, _⟩ => rfl | ⟨1, _⟩ => rfl

/-- Entry `(i, j)` of the matrix product reads its left operand, at summand `k`, at coordinate `k` of point `i`. -/
theorem idx_dotl (i j : Fin 8192) (k : Fin 3) : Read.lidx_main_v5 (ix2 i j) k = ix2 i k := by
  funext a; match a with | ⟨0, _⟩ => rfl | ⟨1, _⟩ => rfl

/-- … and its right operand, the transpose of `x1`, at coordinate `k` of point `j` of `x1`. -/
theorem idx_dotr (i j : Fin 8192) (k : Fin 3) : Read.idx_main_v4 (Read.ridx_main_v5 (ix2 i j) k) = ix2 j k := by
  funext a; match a with | ⟨0, _⟩ => rfl | ⟨1, _⟩ => rfl

/-! ## The entry of the distance matrix -/

/-- The squared norms of `x0`, broadcast along the columns: at `(i, j)` the squared norm of point `i`. The host sum's
    initial word `0.0` is the extended real `0`. -/
theorem sq0_apply (x0 : (⟨S8192x3, .f32⟩ : BufTy).Contents (Elt Ideal)) (i j : Fin 8192) :
    Cert.ReferenceIdeal.Read.val_main_v8 (F := Ideal) x0 (ix2 i j) = Cert.Spec.sqP x0 i := by
  rw [Read.val_main_v8_apply, Read.val_main_v6_apply, Read.val_main_v1_apply, Read.val_main_cst_apply]
  simp only [Read.val_main_v0_apply, Ideal.ofBits_def, Ideal.mulf_def, Ideal.ofBits_zero_f32, zero_add, idx_sq0]
  rfl

/-- The squared norms of `x1`, broadcast along the rows: at `(i, j)` the squared norm of point `j`. -/
theorem sq1_apply (x1 : (⟨S8192x3, .f32⟩ : BufTy).Contents (Elt Ideal)) (i j : Fin 8192) :
    Cert.ReferenceIdeal.Read.val_main_v9 (F := Ideal) x1 (ix2 i j) = Cert.Spec.sqP x1 j := by
  rw [Read.val_main_v9_apply, Read.val_main_v7_apply, Read.val_main_v3_apply, Read.val_main_cst_0_apply]
  simp only [Read.val_main_v2_apply, Ideal.ofBits_def, Ideal.mulf_def, Ideal.ofBits_zero_f32, zero_add, idx_sq1]
  rfl

/-- The product of `x0` with the transpose of `x1`: at `(i, j)` the inner product of point `i` of `x0` with point `j`
    of `x1`. -/
theorem dot_apply (x0 x1 : (⟨S8192x3, .f32⟩ : BufTy).Contents (Elt Ideal)) (i j : Fin 8192) :
    Cert.ReferenceIdeal.Read.val_main_v5 (F := Ideal) x0 x1 (ix2 i j) = Cert.Spec.dotP x0 x1 i j := by
  rw [Read.val_main_v5_apply]
  simp only [Read.val_main_v4_apply, idx_dotl, idx_dotr]
  rfl

/-- The matrix entry: `sqrt (max ((|x0 i|² + |x1 j|²) - 2 * ⟨x0 i, x1 j⟩) 0)`, the distance from point `i` of `x0` to
    point `j` of `x1`. The words `2.0` and `0.0` are the specification's own, and are not evaluated. -/
theorem v16_apply (x0 x1 : (⟨S8192x3, .f32⟩ : BufTy).Contents (Elt Ideal)) (i j : Fin 8192) :
    Cert.ReferenceIdeal.Read.val_main_v16 (F := Ideal) x0 x1 (ix2 i j) = Cert.Spec.distP x0 x1 i j := by
  rw [Read.val_main_v16_apply, Read.val_main_v15_apply, Read.val_main_v13_apply, Read.val_main_v10_apply,
    Read.val_main_v12_apply, Read.val_main_v11_apply, Read.val_main_v14_apply, Read.val_main_cst_1_apply,
    Read.val_main_cst_2_apply, sq0_apply, sq1_apply, dot_apply]
  rfl

/-! ## The two reductions -/

/-- The least entry of row `i`: the fold of `min` from `+inf` over the second axis's coordinates `q` of the distance
    from point `i` of `x0` to point `q` of `x1`. -/
theorem v17_apply (x0 x1 : (⟨S8192x3, .f32⟩ : BufTy).Contents (Elt Ideal)) (i : Fin 8192) :
    Cert.ReferenceIdeal.Read.val_main_v17 (F := Ideal) x0 x1 (ix1 i) = Cert.Spec.rowMin x0 x1 i := by
  have h : S8192x8192.Reduces [1] S8192 := by decide
  unfold Read.val_main_v17
  rw [Host.reduce_eq_fold_single _ _ _ reducesTo_S8192x8192_S8192_d1 h h_S_ (ix1 i)]
  have hf : (Read.val_main_v16 (F := Ideal) x0 x1 ∘ h.lift (ix1 i)) = fun q : Fin 8192 => Cert.Spec.distP x0 x1 i q := by
    funext q
    have hq : h.lift (ix1 i) q = ix2 i q :=
      funext fun a => Fin.ext (by match a with | ⟨0, _⟩ => rfl | ⟨1, _⟩ => rfl)
    show Read.val_main_v16 (F := Ideal) x0 x1 (h.lift (ix1 i) q) = _
    rw [hq]
    exact v16_apply x0 x1 i q
  rw [hf, Read.val_main_cst_3_apply]
  rfl

/-- The least entry of column `j`: the fold of `min` from `+inf` over the first axis's coordinates `p` of the distance
    from point `p` of `x0` to point `j` of `x1`. -/
theorem v20_apply (x0 x1 : (⟨S8192x3, .f32⟩ : BufTy).Contents (Elt Ideal)) (j : Fin 8192) :
    Cert.ReferenceIdeal.Read.val_main_v20 (F := Ideal) x0 x1 (ix1 j) = Cert.Spec.colMin x0 x1 j := by
  have h : S8192x8192.Reduces [0] S8192 := by decide
  unfold Read.val_main_v20
  rw [Host.reduce_eq_fold_single _ _ _ reducesTo_S8192x8192_S8192_d0 h h_S_ (ix1 j)]
  have hf : (Read.val_main_v16 (F := Ideal) x0 x1 ∘ h.lift (ix1 j)) = fun p : Fin 8192 => Cert.Spec.distP x0 x1 p j := by
    funext p
    have hp : h.lift (ix1 j) p = ix2 p j :=
      funext fun a => Fin.ext (by match a with | ⟨0, _⟩ => rfl | ⟨1, _⟩ => rfl)
    show Read.val_main_v16 (F := Ideal) x0 x1 (h.lift (ix1 j) p) = _
    rw [hp]
    exact v16_apply x0 x1 p j
  rw [hf, Read.val_main_cst_6_apply]
  rfl

/-! ## The result: the sum of the two means -/

/-- The vector of row minima, as a function of the index. -/
theorem v17_eq (x0 x1 : (⟨S8192x3, .f32⟩ : BufTy).Contents (Elt Ideal)) :
    Cert.ReferenceIdeal.Read.val_main_v17 (F := Ideal) x0 x1 = fun ix => Cert.Spec.rowMin x0 x1 (ix 0) := by
  funext ix
  exact (congrArg (Read.val_main_v17 (F := Ideal) x0 x1) (eq_ix1 ix)).trans (v17_apply x0 x1 (ix 0))

/-- The vector of column minima is the vector of row minima of the transposed matrix, the matrix of `(x1, x0)`. -/
theorem v20_eq (x0 x1 : (⟨S8192x3, .f32⟩ : BufTy).Contents (Elt Ideal)) :
    Cert.ReferenceIdeal.Read.val_main_v20 (F := Ideal) x0 x1 = fun ix => Cert.Spec.rowMin x1 x0 (ix 0) := by
  funext ix
  exact (congrArg (Read.val_main_v20 (F := Ideal) x0 x1) (eq_ix1 ix)).trans
    ((v20_apply x0 x1 (ix 0)).trans (Cert.Spec.colMin_eq_minOver_swap x0 x1 (ix 0)))

/-- The reference's result: the mean of the row minima of the matrix of `(x0, x1)` plus the mean of the row minima of
    the matrix of `(x1, x0)`. -/
theorem result_eq (x0 x1 : (⟨S8192x3, .f32⟩ : BufTy).Contents (Elt Ideal)) :
    Cert.ReferenceIdeal.Read.val_main_v23 (F := Ideal) x0 x1
      = Cert.Spec.meanSum reducesTo_S8192_S_d0 h_S_ (fun ix => Cert.Spec.rowMin x0 x1 (ix 0)) (fun ix => Cert.Spec.rowMin x1 x0 (ix 0)) := by
  have e : Cert.ReferenceIdeal.Read.val_main_v23 (F := Ideal) x0 x1
      = Cert.Spec.meanSum reducesTo_S8192_S_d0 h_S_ (Read.val_main_v17 (F := Ideal) x0 x1) (Read.val_main_v20 (F := Ideal) x0 x1) := rfl
  rw [e, v17_eq, v20_eq]

end Cert.ReferenceIdeal.RefValue

end
-- ==== Proof.lean ====
/-
  Both programs compute one number from two clouds of 8192 points of 3-space, `pred` and `label`: the mean, over the
  points of `pred`, of the least distance to a point of `label`, plus the mean, over the points of `label`, of the least
  distance to a point of `pred`. The distance is taken through the expansion of the square,
  `sqrt (max ((|p|² + |q|²) - 2 * ⟨p, q⟩) 0)`, over the extended reals.

  The kernel computes, tile by tile, the row minima of the distance matrix of `(pred, label)` and of the distance
  matrix of `(label, pred)`. The reference computes the row minima and the column minima of the one matrix of
  `(pred, label)`. The two agree because:
  * a column minimum of the matrix of `(x, y)` is a row minimum of the matrix of `(y, x)`: the matrix of `(y, x)` is the
    transpose of that of `(x, y)`, addition and multiplication of extended reals being commutative;
  * a minimum over 8192 columns is the running minimum over four blocks of 2048 columns, `min` being associative,
    commutative and idempotent;
  * the closing means, and their sum, are the same function of the two vectors of minima on both sides.
  No entry need be finite for any of this, so the precondition is never opened.

  Each program's run leaves its arguments as launched; the kernel as printed and its reading over the extended reals
  are the same text, no operation having been rewritten.
-/
import proofs.«123189_j2370821948077_1_alg».proof.Defs
import proofs.«123189_j2370821948077_1_alg».proof.Proof.Gen.Kernel
import proofs.«123189_j2370821948077_1_alg».proof.Proof.Gen.KernelIdeal
import proofs.«123189_j2370821948077_1_alg».proof.Proof.Gen.ReferenceIdeal
import proofs.«123189_j2370821948077_1_alg».proof.Proof.Gen.Pre_finite_inputs
import proofs.«123189_j2370821948077_1_alg».proof.Proof.Gen.ReferenceIdeal.Run
import proofs.«123189_j2370821948077_1_alg».proof.Proof.Gen.ReferenceIdeal.Read
import proofs.«123189_j2370821948077_1_alg».proof.Proof.SpecMean
import proofs.«123189_j2370821948077_1_alg».proof.Proof.KernelWhole
import proofs.«123189_j2370821948077_1_alg».proof.Proof.KIdealWhole
import proofs.«123189_j2370821948077_1_alg».proof.Proof.KIdealResult
import proofs.«123189_j2370821948077_1_alg».proof.Proof.RefValue

noncomputable section

namespace Cert.Proof

open Idealize.ShloMosaic Idealize.ShloMosaic.TcCoe Idealize.SL.Sem

/-- The kernel as printed runs and leaves its two arguments as launched. -/
theorem frame_k : Cert.frame_Kernel := fun m ρ _ => Cert.Kernel.Whole.frame (F := Bits) m ρ

/-- The kernel read over the extended reals runs and leaves its two arguments as launched. -/
theorem frame_ki : Cert.frame_KernelIdeal := fun m ρ _ => Cert.KernelIdeal.Whole.frame (F := Ideal) m ρ

/-- The reference runs and leaves its two arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for its reading over the extended reals. -/
theorem preserves : Cert.preserves_Kernel_KernelIdeal := trivial

/-- From clouds that agree, both programs end at the mean of the row minima of the distance matrix of `(pred, label)`
    plus the mean of the row minima of the distance matrix of `(label, pred)`, and leave their arguments as launched. -/
theorem algebraic : Cert.algebraic_KernelIdeal_ReferenceIdeal := by
  intro m ρ m' ρ' _ hagree
  refine ⟨fun c => Cert.Spec.meanSum Cert.KernelIdeal.Gen.reducesTo_S8192_S_d0 Cert.KernelIdeal.Gen.h_S_
      (fun ix => Cert.Spec.rowMin (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (ix 0))
      (fun ix => Cert.Spec.rowMin (m ((c.tc : Thread Cert.KernelIdeal.nD Cert.KernelIdeal.τ).loc Cert.KernelIdeal.main_arg1))
        (m ((c.tc : Thread Cert.KernelIdeal.nD Cert.KernelIdeal.τ).loc Cert.KernelIdeal.main_arg0)) (ix 0)), ?_, ?_⟩
  · exact (θ_run Cert.KernelIdeal.defs _ _).mono (fun _ h c =>
      ⟨(h c _ (Cert.KernelIdeal.Whole.mem_uc Cert.KernelIdeal.main_v8 (by decide))).trans (Cert.KernelIdeal.Whole.result_eq m c),
       (h c _ (Cert.KernelIdeal.Whole.mem_uc Cert.KernelIdeal.main_arg0 (by decide))).trans (Cert.KernelIdeal.Whole.bufs4_main_arg0 m c),
       (h c _ (Cert.KernelIdeal.Whole.mem_uc Cert.KernelIdeal.main_arg1 (by decide))).trans (Cert.KernelIdeal.Whole.bufs4_main_arg1 m c)⟩)
      (Cert.KernelIdeal.Whole.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
